-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x128 : Shape := ⟨3, ![8, 32768, 128]⟩
abbrev S8x32768x32 : Shape := ⟨3, ![8, 32768, 32]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S8x32768x32 : S_.BroadcastsInDim S8x32768x32 (![] : Fin 0 → Fin S8x32768x32.rank)
  reducesTo_S8x32768x32_S_d0_1_2 : S8x32768x32.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg2 : IVec S8x32768x32 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294705152#32
  let main_v39 : IVec S8x32768x32 32 := broadcastInDim S8x32768x32 ![] bcast_S_S8x32768x32 main_c_14
  let main_v40 : IVec S8x32768x32 1 := cmpi .sge main_arg2 main_v39
  let main_c_15 : IVec S_ 1 := constantI S_ 1 1#1
  let main_v41 : IVec S_ 1 := (fun x v => Host.reduce IntOp.andi x v reducesTo_S8x32768x32_S_d0_1_2 h_S_) main_v40 main_c_15
  let main_v42 : IVec S_ 1 := andi main_v38 main_v41
  let main_c_16 : IVec S_ 32 := constantI S_ 32 262144#32
  let main_v43 : IVec S8x32768x32 32 := broadcastInDim S8x32768x32 ![] bcast_S_S8x32768x32 main_c_16
  let main_v44 : IVec S8x32768x32 1 := cmpi .slt main_arg2 main_v43
  let main_c_17 : IVec S_ 1 := constantI S_ 1 1#1
  let main_v45 : IVec S_ 1 := (fun x v => Host.reduce IntOp.andi x v reducesTo_S8x32768x32_S_d0_1_2 h_S_) main_v44 main_c_17
  let main_v46 : IVec S_ 1 := andi main_v42 main_v45
  main_v46

def fn_part1 {F : FTy → Type} [FloatOps F] (main_arg2 : IVec S8x32768x32 32) (main_arg5 : FVec F S64 .f32) (main_arg6 : FVec F S1x64 .f32) (main_arg7 : FVec F S1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_arg8 main_v33

def fn {F : FTy → Type} [FloatOps F] (main_arg0 : FVec F S8x32768x128 .f32) (main_arg1 : FVec F S8x32768x32 .f32) (main_arg2 : IVec S8x32768x32 32) (main_arg3 : FVec F S64x128 .f32) (main_arg4 : FVec F S64 .f32) (main_arg5 : FVec F S64 .f32) (main_arg6 : FVec F S1x64 .f32) (main_arg7 : FVec F S1 .f32) (main_arg8 : FVec F S1 .f32) : IVec S_ 1 :=
  let main_v0 : FVec F S8x32768x128 .f32 := Host.absf main_arg0
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_c : IVec S_ 1 := constantI S_ 1 1#1
  let main_v3 : IVec S_ 1 := (fun x v => Host.reduce IntOp.andi x v reducesTo_S8x32768x128_S_d0_1_2 h_S_) main_v2 main_c
  let main_v4 : FVec F S8x32768x32 .f32 := Host.absf main_arg1
  let main_cst_0 : FVec F S_ .f32 := constant S_ .f32 0x7F800000#32
  let main_v5 : FVec F S8x32768x32 .f32 := broadcastInDim S8x32768x32 ![] bcast_S_S8x32768x32 main_cst_0
  let main_v6 : IVec S8x32768x32 1 := cmpf .olt main_v4 main_v5
  let main_c_1 : IVec S_ 1 := constantI S_ 1 1#1
  let main_v7 : IVec S_ 1 := (fun x v => Host.reduce IntOp.andi x v reducesTo_S8x32768x32_S_d0_1_2 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_v13 main_v16
-- ==== Kernel.lean ====
abbrev S8x32768x128 : Shape := ⟨3, ![8, 32768, 128]⟩
abbrev S8x32768x32 : Shape := ⟨3, ![8, 32768, 32]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x1 : Shape := ⟨2, ![64, 1]⟩
abbrev S_ : Shape := ⟨0, ![]⟩
abbrev S1x1 : Shape := ⟨2, ![1, 1]⟩
abbrev S128x64 : Shape := ⟨2, ![128, 64]⟩
abbrev S262144x128 : Shape := ⟨2, ![262144, 128]⟩
abbrev S262144x1 : Shape := ⟨2, ![262144, 1]⟩
abbrev S8192x128 : Shape := ⟨2, ![8192, 128]⟩
abbrev S8192x1 : Shape := ⟨2, ![8192, 1]⟩
abbrev S8192x64 : Shape := ⟨2, ![8192, 64]⟩
abbrev S8192 : Shape := ⟨1, ![8192]⟩
abbrev S8x32768x1 : Shape := ⟨3, ![8, 32768, 1]⟩
abbrev S8x1 : Shape := ⟨2, ![8, 1]⟩
abbrev S8x1x1 : Shape := ⟨3, ![8, 1, 1]⟩
abbrev S262144 : Shape := ⟨1, ![262144]⟩
abbrev S8x32768x32x1 : Shape := ⟨4, ![8, 32768, 32, 1]⟩
abbrev S1x1x1x1 : Shape := ⟨4, ![1, 1, 1, 1]⟩
abbrev S1x4096x32 : Shape := ⟨3, ![1, 4096, 32]⟩
abbrev S1x4096x1 : Shape := ⟨3, ![1, 4096, 1]⟩
abbrev S1x4096 : Shape := ⟨2, ![1, 4096]⟩

abbrev nBuf : Space → Nat
  | .hbm => 74
  | .vmem => 16
  | .smem => 0
  | _ => 0

abbrev bufTy : (tb : Table) → Fin (tcTables nBuf tb) → BufTy
  | .hbm, ⟨0, _⟩ => ⟨S8x32768x128, .f32⟩
  | .hbm, ⟨1, _⟩ => ⟨S8x32768x32, .f32⟩
  | .hbm, ⟨2, _⟩ => ⟨S8x32768x32, .i32⟩
  | .hbm, ⟨3, _⟩ => ⟨S64x128, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1, .f32⟩
  | .hbm, ⟨9, _⟩ => ⟨S64x1, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S_, .f32⟩
  | .hbm, ⟨14, _⟩ => ⟨S64, .f32⟩
  | .hbm, ⟨15, _⟩ => ⟨S64x1, .f32⟩
  | .hbm, ⟨16, _⟩ => ⟨S64x1, .f32⟩
  | .hbm, ⟨17, _⟩ => ⟨S64x128, .f32⟩
  | .hbm, ⟨18, _⟩ => ⟨S64x128, .f32⟩
  | .hbm, ⟨19, _⟩ => ⟨S1x1, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S_, .f32⟩
  | .hbm, ⟨24, _⟩ => ⟨S1, .f32⟩
  | .hbm, ⟨25, _⟩ => ⟨S1x1, .f32⟩
  | .hbm, ⟨26, _⟩ => ⟨S1x1, .f32⟩
  | .hbm, ⟨27, _⟩ => ⟨S1x64, .f32⟩
  | .hbm, ⟨28, _⟩ => ⟨S1x64, .f32⟩
  | .hbm, ⟨29, _⟩ => ⟨S128x64, .f32⟩
  | .hbm, ⟨30, _⟩ => ⟨S128x64, .bf16⟩
  | .hbm, ⟨31, _⟩ => ⟨S1x64, .f32⟩
  | .hbm, ⟨32, _⟩ => ⟨S1x1, .f32⟩
  | .hbm, ⟨33, _⟩ => ⟨S262144x128, .f32⟩
  | .hbm, ⟨34, _⟩ => ⟨S262144x1, .f32⟩
  | .hbm, ⟨35, _⟩ => ⟨S8x32768x1, .f32⟩
  | .hbm, ⟨36, _⟩ => ⟨S_, .f32⟩
  | .hbm, ⟨37, _⟩ => ⟨S8x1, .f32⟩
  | .hbm, ⟨38, _⟩ => ⟨S_, .f32⟩
  | .hbm, ⟨39, _⟩ => ⟨S8x1, .f32⟩
  | .hbm, ⟨40, _⟩ => ⟨S8x1, .f32⟩
  | .hbm, ⟨41, _⟩ => ⟨S8x1x1, .f32⟩
  | .hbm, ⟨42, _⟩ => ⟨S8x32768x1, .f32⟩
  | .hbm, ⟨43, _⟩ => ⟨S8x32768x1, .f32⟩
  | .hbm, ⟨44, _⟩ => ⟨S8x32768x1, .f32⟩
  | .hbm, ⟨45, _⟩ => ⟨S_, .f32⟩
  | .hbm, ⟨46, _⟩ => ⟨S8x1, .f32⟩
  | .hbm, ⟨47, _⟩ => ⟨S8x1x1, .f32⟩
  | .hbm, ⟨48, _⟩ => ⟨S8x32768x1, .f32⟩
  | .hbm, ⟨49, _⟩ => ⟨S8x32768x1, .f32⟩
  | .hbm, ⟨50, _⟩ => ⟨S262144, .f32⟩
  | .hbm, ⟨51, _⟩ => ⟨S_, .i32⟩
  | .hbm, ⟨52, _⟩ => ⟨S8x32768x32, .i32⟩
  | .hbm, ⟨53, _⟩ => ⟨S8x32768x32, .i1⟩
  | .hbm, ⟨54, _⟩ => ⟨S_, .i32⟩
  | .hbm, ⟨55, _⟩ => ⟨S8x32768x32, .i32⟩
  | .hbm, ⟨56, _⟩ => ⟨S8x32768x32, .i32⟩
  | .hbm, ⟨57, _⟩ => ⟨S8x32768x32, .i32⟩
  | .hbm, ⟨58, _⟩ => ⟨S8x32768x32x1, .i32⟩
  | .hbm, ⟨59, _⟩ => ⟨S1, .i32⟩
  | .hbm, ⟨60, _⟩ => ⟨S_, .i32⟩
  | .hbm, ⟨61, _⟩ => ⟨S8x32768x32x1, .i32⟩
  | .hbm, ⟨62, _⟩ => ⟨S8x32768x32x1, .i1⟩
  | .hbm, ⟨63, _⟩ => ⟨S1x1x1x1, .i32⟩
  | .hbm, ⟨64, _⟩ => ⟨S8x32768x32x1, .i32⟩
  | .hbm, ⟨65, _⟩ => ⟨S8x32768x32x1, .i1⟩
  | .hbm, ⟨66, _⟩ => ⟨S8x32768x32x1, .i1⟩
  | .hbm, ⟨67, _⟩ => ⟨S_, .i1⟩
  | .hbm, ⟨68, _⟩ => ⟨S8x32768x32, .i1⟩
  | .hbm, ⟨69, _⟩ => ⟨S8x32768x32, .f32⟩
  | .hbm, ⟨70, _⟩ => ⟨S_, .f32⟩
  | .hbm, ⟨71, _⟩ => ⟨S8x32768x32, .f32⟩
  | .hbm, ⟨72, _⟩ => ⟨S8x32768x32, .f32⟩
  | .hbm, ⟨73, _⟩ => ⟨S8x32768x1, .f32⟩
  | .local _ .vmem, ⟨0, _⟩ => ⟨S8192x128, .f32⟩
  | .local _ .vmem, ⟨1, _⟩ => ⟨S8192x128, .f32⟩
  | .local _ .vmem, ⟨2, _⟩ => ⟨S128x64, .bf16⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S8192x1, .f32⟩
  | .local _ .vmem, ⟨7, _⟩ => ⟨S8192x1, .f32⟩
  | .local _ .vmem, ⟨8, _⟩ => ⟨S1x4096x32, .f32⟩
  | .local _ .vmem, ⟨9, _⟩ => ⟨S1x4096x32, .f32⟩
  | .local _ .vmem, ⟨10, _⟩ => ⟨S1x4096x32, .f32⟩
  | .local _ .vmem, ⟨11, _⟩ => ⟨S1x4096x32, .f32⟩
  | .local _ .vmem, ⟨12, _⟩ => ⟨S1x4096x1, .f32⟩
  | .local _ .vmem, ⟨13, _⟩ => ⟨S1x4096x1, .f32⟩
  | .local _ .vmem, ⟨14, _⟩ => ⟨S1x4096x1, .f32⟩
  | .local _ .vmem, ⟨15, _⟩ => ⟨S1x4096x1, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v31 : Ref sig .tc := ⟨.hbm, 72, rfl⟩
abbrev main_v32 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S64x128_S64_d1 : S64x128.ReducesTo [1] S64
  h_S_ : 0 < S_.numel
  bcast_S1_S1x1_0 : S1.BroadcastsInDim S1x1 (![0] : Fin 1 → Fin S1x1.rank)
  bcast_S1x1_S1x64_0_1 : S1x1.BroadcastsInDim S1x64 (![0, 1] : Fin 2 → Fin S1x64.rank)
  reducesTo_S1x64_S1_d1 : S1x64.ReducesTo [1] S1
  transposes_S64x128_S128x64_1_0 : S64x128.Transposes [1, 0] S128x64
  bitsLt_bf16_f32 : FTy.bits .bf16 < FTy.bits .f32
  shapeCasts_S64_S1x64 : S64.ShapeCasts S1x64
  shapeCasts_S1_S1x1 : S1.ShapeCasts S1x1
  shapeCasts_S8x32768x128_S262144x128 : S8x32768x128.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S262144x1_S8x32768x1 : S262144x1.ShapeCasts S8x32768x1
  reducesTo_S8x32768x1_S8x1_d1 : S8x32768x1.ReducesTo [1] S8x1
  bcast_S_S8x1 : S_.BroadcastsInDim S8x1 (![] : Fin 0 → Fin S8x1.rank)
  bcast_S8x1_S8x1x1_0_2 : S8x1.BroadcastsInDim S8x1x1 (![0, 2] : Fin 2 → Fin S8x1x1.rank)
  bcast_S8x1x1_S8x32768x1_0_1_2 : S8x1x1.BroadcastsInDim S8x32768x1 (![0, 1, 2] : Fin 3 → Fin S8x32768x1.rank)
  shapeCasts_S8x32768x1_S262144 : S8x32768x1.ShapeCasts S262144
  bcast_S_S8x32768x32 : S_.BroadcastsInDim S8x32768x32 (![] : Fin 0 → Fin S8x32768x32.rank)
  bcast_S8x32768x32_S8x32768x32x1_0_1_2 : S8x32768x32.BroadcastsInDim S8x32768x32x1 (![0, 1, 2] : Fin 3 → Fin S8x32768x32x1.rank)
  bcast_S_S8x32768x32x1 : S_.BroadcastsInDim S8x32768x32x1 (![] : Fin 0 → Fin S8x32768x32x1.rank)
  bcast_S1_S1x1x1x1_3 : S1.BroadcastsInDim S1x1x1x1 (![3] : Fin 1 → Fin S1x1x1x1.rank)
  bcast_S1x1x1x1_S8x32768x32x1_0_1_2_3 : S1x1x1x1.BroadcastsInDim S8x32768x32x1 (![0, 1, 2, 3] : Fin 4 → Fin S8x32768x32x1.rank)
  reducesTo_S8x32768x32x1_S8x32768x32_d3 : S8x32768x32x1.ReducesTo [3] S8x32768x32
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S1x4096x32 : S1x4096x32.ShapeCasts S1x4096x32
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S1x4096x1 : S1x4096x1.ShapeCasts S1x4096x1
  reduces_S1x4096x32_S1x4096 : S1x4096x32.Reduces [2] S1x4096
  shapeCasts_S1x4096_S1x4096x1 : S1x4096.ShapeCasts S1x4096x1
  broadcasts_S1x4096x1_S1x4096x32 : S1x4096x1.Broadcasts S1x4096x32
  dot_S8192x128_S128x64_S8192x64_1_0_0_1_n_n_wf : DotDims.WF S8192x128 S128x64 S8192x64 [1] [0] [0] [1] [] []
  gather_S262144_S8x32768x32x1_S8x32768x32_n_0_n_n_0_3_1_wf : GatherDims.WF S262144 S8x32768x32x1 S8x32768x32 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x1.size a ≤ S262144x1.size a
  hwx0_5 : ∀ i : grid0.Coords, EltTy.bits .f32 = 32 ∨ (Rect.block (s := S262144x1) S8192x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x32.size a ≤ S8x32768x32.size a
  hwx1_0 : ∀ i : grid1.Coords, EltTy.bits .f32 = 32 ∨ (Rect.block (s := S8x32768x32) S1x4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x32.size a ≤ S8x32768x32.size a
  hwx1_1 : ∀ i : grid1.Coords, EltTy.bits .f32 = 32 ∨ (Rect.block (s := S8x32768x32) S1x4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x1.size a ≤ S8x32768x1.size a
  hwx1_2 : ∀ i : grid1.Coords, EltTy.bits .f32 = 32 ∨ (Rect.block (s := S8x32768x1) S1x4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x1.size a ≤ S8x32768x1.size a
  hwx1_3 : ∀ i : grid1.Coords, EltTy.bits .f32 = 32 ∨ (Rect.block (s := S8x32768x1) S1x4096x1.size (cc1_transform_3 i) (hinb1_3 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S262144_S8x32768x32x1_S8x32768x32_n_0_n_n_0_3_1 : GatherDims S262144 S8x32768x32x1 S8x32768x32 where
  offsetDims := []
  collapsedSliceDims := [0]
  operandBatchingDims := []
  startIndicesBatchingDims := []
  startIndexMap := [0]
  indexVectorDim := 3
  sliceSizes := ![1]
  wf := gather_S262144_S8x32768x32x1_S8x32768x32_n_0_n_n_0_3_1_wf

abbrev win0_0 : Pipeline.Window sig grid0 :=
  Pipeline.Window.ofSpec (Memref.whole main_v16) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8192x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1x4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x4096x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x32768x128 : Shape := ⟨3, ![8, 32768, 128]⟩
abbrev S8x32768x32 : Shape := ⟨3, ![8, 32768, 32]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x1 : Shape := ⟨2, ![64, 1]⟩
abbrev S_ : Shape := ⟨0, ![]⟩
abbrev S1x1 : Shape := ⟨2, ![1, 1]⟩
abbrev S8x32768x64 : Shape := ⟨3, ![8, 32768, 64]⟩
abbrev S1x1x64 : Shape := ⟨3, ![1, 1, 64]⟩
abbrev S8x32768x1 : Shape := ⟨3, ![8, 32768, 1]⟩
abbrev S1x1x1 : Shape := ⟨3, ![1, 1, 1]⟩
abbrev S8x1 : Shape := ⟨2, ![8, 1]⟩
abbrev S8x1x1 : Shape := ⟨3, ![8, 1, 1]⟩
abbrev S8x32768 : Shape := ⟨2, ![8, 32768]⟩
abbrev S262144 : Shape := ⟨1, ![262144]⟩
abbrev S8x32768x32x1 : Shape := ⟨4, ![8, 32768, 32, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S8x32768x32, .f32⟩
  | .hbm, ⟨2, _⟩ => ⟨S8x32768x32, .i32⟩
  | .hbm, ⟨3, _⟩ => ⟨S64x128, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1, .f32⟩
  | .hbm, ⟨9, _⟩ => ⟨S64x1, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S_, .f32⟩
  | .hbm, ⟨14, _⟩ => ⟨S64, .f32⟩
  | .hbm, ⟨15, _⟩ => ⟨S64x1, .f32⟩
  | .hbm, ⟨16, _⟩ => ⟨S64x1, .f32⟩
  | .hbm, ⟨17, _⟩ => ⟨S64x128, .f32⟩
  | .hbm, ⟨18, _⟩ => ⟨S64x128, .f32⟩
  | .hbm, ⟨19, _⟩ => ⟨S1x1, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S_, .f32⟩
  | .hbm, ⟨24, _⟩ => ⟨S1, .f32⟩
  | .hbm, ⟨25, _⟩ => ⟨S1x1, .f32⟩
  | .hbm, ⟨26, _⟩ => ⟨S1x1, .f32⟩
  | .hbm, ⟨27, _⟩ => ⟨S1x64, .f32⟩
  | .hbm, ⟨28, _⟩ => ⟨S1x64, .f32⟩
  | .hbm, ⟨29, _⟩ => ⟨S8x32768x64, .f32⟩
  | .hbm, ⟨30, _⟩ => ⟨S1x1x64, .f32⟩
  | .hbm, ⟨31, _⟩ => ⟨S8x32768x64, .f32⟩
  | .hbm, ⟨32, _⟩ => ⟨S8x32768x64, .f32⟩
  | .hbm, ⟨33, _⟩ => ⟨S_, .f32⟩
  | .hbm, ⟨34, _⟩ => ⟨S8x32768x64, .f32⟩
  | .hbm, ⟨35, _⟩ => ⟨S8x32768x64, .f32⟩
  | .hbm, ⟨36, _⟩ => ⟨S8x32768x1, .f32⟩
  | .hbm, ⟨37, _⟩ => ⟨S1x1x1, .f32⟩
  | .hbm, ⟨38, _⟩ => ⟨S8x32768x1, .f32⟩
  | .hbm, ⟨39, _⟩ => ⟨S8x32768x1, .f32⟩
  | .hbm, ⟨40, _⟩ => ⟨S_, .f32⟩
  | .hbm, ⟨41, _⟩ => ⟨S8x1, .f32⟩
  | .hbm, ⟨42, _⟩ => ⟨S_, .f32⟩
  | .hbm, ⟨43, _⟩ => ⟨S8x1, .f32⟩
  | .hbm, ⟨44, _⟩ => ⟨S8x1, .f32⟩
  | .hbm, ⟨45, _⟩ => ⟨S8x1x1, .f32⟩
  | .hbm, ⟨46, _⟩ => ⟨S8x32768x1, .f32⟩
  | .hbm, ⟨47, _⟩ => ⟨S8x32768x1, .f32⟩
  | .hbm, ⟨48, _⟩ => ⟨S8x32768x1, .f32⟩
  | .hbm, ⟨49, _⟩ => ⟨S_, .f32⟩
  | .hbm, ⟨50, _⟩ => ⟨S8x1, .f32⟩
  | .hbm, ⟨51, _⟩ => ⟨S8x1x1, .f32⟩
  | .hbm, ⟨52, _⟩ => ⟨S8x32768x1, .f32⟩
  | .hbm, ⟨53, _⟩ => ⟨S8x32768x1, .f32⟩
  | .hbm, ⟨54, _⟩ => ⟨S_, .f32⟩
  | .hbm, ⟨55, _⟩ => ⟨S8x32768, .f32⟩
  | .hbm, ⟨56, _⟩ => ⟨S_, .f32⟩
  | .hbm, ⟨57, _⟩ => ⟨S8x32768, .f32⟩
  | .hbm, ⟨58, _⟩ => ⟨S8x32768, .f32⟩
  | .hbm, ⟨59, _⟩ => ⟨S8x32768x1, .f32⟩
  | .hbm, ⟨60, _⟩ => ⟨S8x32768x32, .f32⟩
  | .hbm, ⟨61, _⟩ => ⟨S8x32768x32, .f32⟩
  | .hbm, ⟨62, _⟩ => ⟨S8x32768x32, .f32⟩
  | .hbm, ⟨63, _⟩ => ⟨S_, .f32⟩
  | .hbm, ⟨64, _⟩ => ⟨S8x32768, .f32⟩
  | .hbm, ⟨65, _⟩ => ⟨S8x32768x1, .f32⟩
  | .hbm, ⟨66, _⟩ => ⟨S8x32768x32, .f32⟩
  | .hbm, ⟨67, _⟩ => ⟨S8x32768x32, .f32⟩
  | .hbm, ⟨68, _⟩ => ⟨S262144, .f32⟩
  | .hbm, ⟨69, _⟩ => ⟨S_, .i32⟩
  | .hbm, ⟨70, _⟩ => ⟨S8x32768x32, .i32⟩
  | .hbm, ⟨71, _⟩ => ⟨S8x32768x32, .i1⟩
  | .hbm, ⟨72, _⟩ => ⟨S_, .i32⟩
  | .hbm, ⟨73, _⟩ => ⟨S8x32768x32, .i32⟩
  | .hbm, ⟨74, _⟩ => ⟨S8x32768x32, .i32⟩
  | .hbm, ⟨75, _⟩ => ⟨S8x32768x32, .i32⟩
  | .hbm, ⟨76, _⟩ => ⟨S8x32768x32x1, .i32⟩
  | .hbm, ⟨77, _⟩ => ⟨S8x32768x32, .f32⟩
  | .hbm, ⟨78, _⟩ => ⟨S8x32768x32, .f32⟩
  | .hbm, ⟨79, _⟩ => ⟨S_, .f32⟩
  | .hbm, ⟨80, _⟩ => ⟨S8x32768, .f32⟩
  | .hbm, ⟨81, _⟩ => ⟨S8x32768x1, .f32⟩
  | .hbm, ⟨82, _⟩ => ⟨S_, .f32⟩
  | .hbm, ⟨83, _⟩ => ⟨S8x32768x1, .f32⟩
  | .hbm, ⟨84, _⟩ => ⟨S8x32768x1, .f32⟩
  | .hbm, ⟨85, _⟩ => ⟨S_, .f32⟩
  | .hbm, ⟨86, _⟩ => ⟨S8x32768x1, .f32⟩
  | .hbm, ⟨87, _⟩ => ⟨S8x32768x1, .f32⟩
  | .hbm, ⟨88, _⟩ => ⟨S8x32768x1, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call2_cst : Ref sig .tc := ⟨.hbm, 33, rfl⟩
abbrev main_call2_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_cst_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c : Ref sig .tc := ⟨.hbm, 69, rfl⟩
abbrev main_v44 : Ref sig .tc := ⟨.hbm, 70, rfl⟩
abbrev main_v45 : Ref sig .tc := ⟨.hbm, 71, rfl⟩
abbrev main_c_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S64x128_S64_d1 : S64x128.ReducesTo [1] S64
  h_S_ : 0 < S_.numel
  bcast_S1_S1x1_0 : S1.BroadcastsInDim S1x1 (![0] : Fin 1 → Fin S1x1.rank)
  bcast_S1x1_S1x64_0_1 : S1x1.BroadcastsInDim S1x64 (![0, 1] : Fin 2 → Fin S1x64.rank)
  reducesTo_S1x64_S1_d1 : S1x64.ReducesTo [1] S1
  bcast_S64_S1x1x64_2 : S64.BroadcastsInDim S1x1x64 (![2] : Fin 1 → Fin S1x1x64.rank)
  bcast_S1x1x64_S8x32768x64_0_1_2 : S1x1x64.BroadcastsInDim S8x32768x64 (![0, 1, 2] : Fin 3 → Fin S8x32768x64.rank)
  bcast_S_S8x32768x64 : S_.BroadcastsInDim S8x32768x64 (![] : Fin 0 → Fin S8x32768x64.rank)
  bcast_S1_S1x1x1_2 : S1.BroadcastsInDim S1x1x1 (![2] : Fin 1 → Fin S1x1x1.rank)
  bcast_S1x1x1_S8x32768x1_0_1_2 : S1x1x1.BroadcastsInDim S8x32768x1 (![0, 1, 2] : Fin 3 → Fin S8x32768x1.rank)
  reducesTo_S8x32768x1_S8x1_d1 : S8x32768x1.ReducesTo [1] S8x1
  bcast_S_S8x1 : S_.BroadcastsInDim S8x1 (![] : Fin 0 → Fin S8x1.rank)
  bcast_S8x1_S8x1x1_0_2 : S8x1.BroadcastsInDim S8x1x1 (![0, 2] : Fin 2 → Fin S8x1x1.rank)
  bcast_S8x1x1_S8x32768x1_0_1_2 : S8x1x1.BroadcastsInDim S8x32768x1 (![0, 1, 2] : Fin 3 → Fin S8x32768x1.rank)
  reducesTo_S8x32768x32_S8x32768_d2 : S8x32768x32.ReducesTo [2] S8x32768
  bcast_S_S8x32768 : S_.BroadcastsInDim S8x32768 (![] : Fin 0 → Fin S8x32768.rank)
  bcast_S8x32768_S8x32768x1_0_1 : S8x32768.BroadcastsInDim S8x32768x1 (![0, 1] : Fin 2 → Fin S8x32768x1.rank)
  bcast_S8x32768x1_S8x32768x32_0_1_2 : S8x32768x1.BroadcastsInDim S8x32768x32 (![0, 1, 2] : Fin 3 → Fin S8x32768x32.rank)
  shapeCasts_S8x32768x1_S262144 : S8x32768x1.ShapeCasts S262144
  bcast_S_S8x32768x32 : S_.BroadcastsInDim S8x32768x32 (![] : Fin 0 → Fin S8x32768x32.rank)
  bcast_S8x32768x32_S8x32768x32x1_0_1_2 : S8x32768x32.BroadcastsInDim S8x32768x32x1 (![0, 1, 2] : Fin 3 → Fin S8x32768x32x1.rank)
  bcast_S_S8x32768x1 : S_.BroadcastsInDim S8x32768x1 (![] : Fin 0 → Fin S8x32768x1.rank)
  dot_S8x32768x128_S64x128_S8x32768x64_2_1_01_0_n_n_wf : DotDims.WF S8x32768x128 S64x128 S8x32768x64 [2] [1] [0, 1] [0] [] []
  dot_S8x32768x64_S1x64_S8x32768x1_2_1_01_0_n_n_wf : DotDims.WF S8x32768x64 S1x64 S8x32768x1 [2] [1] [0, 1] [0] [] []
  gather_S262144_S8x32768x32x1_S8x32768x32_n_0_n_n_0_3_1_wf : GatherDims.WF S262144 S8x32768x32x1 S8x32768x32 [] [0] [] [0] [] 3 ![1]

variable [Facts₀]

def dot_S8x32768x128_S64x128_S8x32768x64_2_1_01_0_n_n : DotDims S8x32768x128 S64x128 S8x32768x64 where
  lhsContracting := [2]
  rhsContracting := [1]
  lhsNonContracting := [0, 1]
  rhsNonContracting := [0]
  lhsBatch := []
  rhsBatch := []
  wf := dot_S8x32768x128_S64x128_S8x32768x64_2_1_01_0_n_n_wf
def dot_S8x32768x64_S1x64_S8x32768x1_2_1_01_0_n_n : DotDims S8x32768x64 S1x64 S8x32768x1 where
  lhsContracting := [2]
  rhsContracting := [1]
  lhsNonContracting := [0, 1]
  rhsNonContracting := [0]
  lhsBatch := []
  rhsBatch := []
  wf := dot_S8x32768x64_S1x64_S8x32768x1_2_1_01_0_n_n_wf
def gather_S262144_S8x32768x32x1_S8x32768x32_n_0_n_n_0_3_1 : GatherDims S262144 S8x32768x32x1 S8x32768x32 where
  offsetDims := []
  collapsedSliceDims := [0]
  operandBatchingDims := []
  startIndicesBatchingDims := []
  startIndexMap := [0]
  indexVectorDim := 3
  sliceSizes := ![1]
  wf := gather_S262144_S8x32768x32x1_S8x32768x32_n_0_n_n_0_3_1_wf

class Facts : Prop extends Facts₀ where

variable [Facts]
-- ==== Proof.KernelHost.lean ====
/-
  What the kernel program's host operations compute between the launch and each region's entry.

  Before the first region the two weight matrices are normalised row by row (each row of v scaled by its gain over
  its Euclidean norm), the first is transposed, and the features are flattened to rows. Between the regions the
  first region's logits are reshaped to [8, 32768, 1] and turned into node weights by a softmax over the node axis;
  the neighbour weights are then taken from the flattened node weights at the neighbour indices, a negative index
  first moved up by the table's length, an index still outside the table answered by a fill word.
  Each chain is named once here and never opened again: the reference applies the same chains.
-/
import proofs.«426404_j75952201663109_3_alg».proof.Proof.Gen.KernelIdeal.Frame
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- Weight normalisation of the [64, 128] matrix: row h of v times g[h], over the row's Euclidean norm. -/
def normRows1 (v : (⟨S64x128, .f32⟩ : BufTy).Contents (Elt F)) (g : (⟨S64, .f32⟩ : BufTy).Contents (Elt F)) :
    (⟨S64x128, .f32⟩ : BufTy).Contents (Elt F) :=
  Host.divf
    (mulf (broadcastInDim S64x128 ![0, 1] bcast_S64x1_S64x128_0_1 (broadcastInDim S64x1 ![0] bcast_S64_S64x1_0 g)) v)
    (broadcastInDim S64x128 ![0, 1] bcast_S64x1_S64x128_0_1
      (Host.sqrt (broadcastInDim S64x1 ![0] bcast_S64_S64x1_0
        (Host.reduceAdd (mulf v v) (constant S_ .f32 0x00000000#32) reducesTo_S64x128_S64_d1 h_S_))))

/-- Weight normalisation of the [1, 64] row. -/
def normRows2 (v : (⟨S1x64, .f32⟩ : BufTy).Contents (Elt F)) (g : (⟨S1, .f32⟩ : BufTy).Contents (Elt F)) :
    (⟨S1x64, .f32⟩ : BufTy).Contents (Elt F) :=
  Host.divf
    (mulf (broadcastInDim S1x64 ![0, 1] bcast_S1x1_S1x64_0_1 (broadcastInDim S1x1 ![0] bcast_S1_S1x1_0 g)) v)
    (broadcastInDim S1x64 ![0, 1] bcast_S1x1_S1x64_0_1
      (Host.sqrt (broadcastInDim S1x1 ![0] bcast_S1_S1x1_0
        (Host.reduceAdd (mulf v v) (constant S_ .f32 0x00000000#32) reducesTo_S1x64_S1_d1 h_S_))))

/-- The shifted exponentials of the node logits: exp (L − max over the node axis). -/
def nodeExp (L : (⟨S8x32768x1, .f32⟩ : BufTy).Contents (Elt F)) : (⟨S8x32768x1, .f32⟩ : BufTy).Contents (Elt F) :=
  Host.exp (subf L
    (broadcastInDim S8x32768x1 ![0, 1, 2] bcast_S8x1x1_S8x32768x1_0_1_2
      (broadcastInDim S8x1x1 ![0, 2] bcast_S8x1_S8x1x1_0_2
        (maximumf (broadcastInDim S8x1 ![] bcast_S_S8x1 (constant S_ .f32 0xFF800000#32))
          (Host.reduce FloatOps.maximumf L (constant S_ .f32 0xFF800000#32) reducesTo_S8x32768x1_S8x1_d1 h_S_)))))

/-- The softmax over the node axis. -/
def nodeSoftmax (L : (⟨S8x32768x1, .f32⟩ : BufTy).Contents (Elt F)) : (⟨S8x32768x1, .f32⟩ : BufTy).Contents (Elt F) :=
  Host.divf (nodeExp L)
    (broadcastInDim S8x32768x1 ![0, 1, 2] bcast_S8x1x1_S8x32768x1_0_1_2
      (broadcastInDim S8x1x1 ![0, 2] bcast_S8x1_S8x1x1_0_2
        (Host.reduceAdd (nodeExp L) (constant S_ .f32 0x00000000#32) reducesTo_S8x32768x1_S8x1_d1 h_S_)))

/-- A neighbour index with a negative value moved up by the table's length 262144, as a start-index array. -/
def wrapIdx (idx : (⟨S8x32768x32, .i32⟩ : BufTy).Contents (Elt F)) : (⟨S8x32768x32x1, .i32⟩ : BufTy).Contents (Elt F) :=
  broadcastInDim S8x32768x32x1 ![0, 1, 2] bcast_S8x32768x32_S8x32768x32x1_0_1_2
    (select (cmpi .slt idx (broadcastInDim S8x32768x32 ![] bcast_S_S8x32768x32 (constantI S_ 32 0#32)))
      (addi idx (broadcastInDim S8x32768x32 ![] bcast_S_S8x32768x32 (constantI S_ 32 262144#32))) idx)

/-- Whether a start index lies in the table: 0 ≤ w ≤ 262143, as a mask. -/
def inTable (w : (⟨S8x32768x32x1, .i32⟩ : BufTy).Contents (Elt F)) : (⟨S8x32768x32, .i1⟩ : BufTy).Contents (Elt F) :=
  Host.reduce IntOp.andi
    (andi (cmpi .sge w (broadcastInDim S8x32768x32x1 ![] bcast_S_S8x32768x32x1 (constantI S_ 32 0#32)))
      (cmpi .sle w (broadcastInDim S8x32768x32x1 ![0, 1, 2, 3] bcast_S1x1x1x1_S8x32768x32x1_0_1_2_3
        (broadcastInDim S1x1x1x1 ![3] bcast_S1_S1x1x1x1_3 (constantI S1 32 262143#32)))))
    (constantI S_ 1 1#1) reducesTo_S8x32768x32x1_S8x32768x32_d3 h_S_

/-- The table read at the start indices (the library's gather: a start index outside the table is clamped). -/
def gatherAt (flat : (⟨S262144, .f32⟩ : BufTy).Contents (Elt F)) (w : (⟨S8x32768x32x1, .i32⟩ : BufTy).Contents (Elt F)) :
    (⟨S8x32768x32, .f32⟩ : BufTy).Contents (Elt F) :=
  Host.gather gather_S262144_S8x32768x32x1_S8x32768x32_n_0_n_n_0_3_1 flat w

/-- The take: the table at the wrapped index where that lies in the table, a fill word elsewhere. -/
def takeFill (flat : (⟨S262144, .f32⟩ : BufTy).Contents (Elt F)) (idx : (⟨S8x32768x32, .i32⟩ : BufTy).Contents (Elt F)) :
    (⟨S8x32768x32, .f32⟩ : BufTy).Contents (Elt F) :=
  select (inTable (F := F) (wrapIdx (F := F) idx)) (gatherAt flat (wrapIdx (F := F) idx))
    (broadcastInDim S8x32768x32 ![] bcast_S_S8x32768x32 (constant S_ .f32 0x7FC00000#32))

variable (m : (ℓ : Loc nD τ sig) → Buf (Elt F) ℓ) (ρ : Dev nD → PrngReg)

/-! ## The first region's input arrays at its entry -/

theorem entry0_rows (c : Dev nD) :
    V5 m ρ c main_v16 = shapeCast S262144x128 (m ((c : Thread nD τ).loc main_arg0)) shapeCasts_S8x32768x128_S262144x128 := by
  dsimp only [V5, W5, W4, W3, W2, W1, W0]
  simp only [hostOps0_4, hostOps0_3, hostOps0_2, hostOps0_1, hostOps0]
  after_results
  rfl

theorem entry0_weights (c : Dev nD) :
    V5 m ρ c main_v13 = truncf .bf16 (transpose S128x64 [1, 0]
      (normRows1 (m ((c : Thread nD τ).loc main_arg3)) (m ((c : Thread nD τ).loc main_arg4))) transposes_S64x128_S128x64_1_0) bitsLt_bf16_f32 := by
  dsimp only [V5, W5, W4, W3, W2, W1, W0]
  simp only [hostOps0_4, hostOps0_3, hostOps0_2, hostOps0_1, hostOps0]
  after_results
  rfl

theorem entry0_bias1 (c : Dev nD) :
    V5 m ρ c main_v14 = shapeCast S1x64 (m ((c : Thread nD τ).loc main_arg5)) shapeCasts_S64_S1x64 := by
  dsimp only [V5, W5, W4, W3, W2, W1, W0]
  simp only [hostOps0_4, hostOps0_3, hostOps0_2, hostOps0_1, hostOps0]
  after_results
  rfl

theorem entry0_weights2 (c : Dev nD) :
    V5 m ρ c main_v11 = normRows2 (m ((c : Thread nD τ).loc main_arg6)) (m ((c : Thread nD τ).loc main_arg7)) := by
  dsimp only [V5, W5, W4, W3, W2, W1, W0]
  simp only [hostOps0_4, hostOps0_3, hostOps0_2, hostOps0_1, hostOps0]
  after_results
  rfl

theorem entry0_bias2 (c : Dev nD) :
    V5 m ρ c main_v15 = shapeCast S1x1 (m ((c : Thread nD τ).loc main_arg8)) shapeCasts_S1_S1x1 := by
  dsimp only [V5, W5, W4, W3, W2, W1, W0]
  simp only [hostOps0_4, hostOps0_3, hostOps0_2, hostOps0_1, hostOps0]
  after_results
  rfl

/-! ## The second region's input arrays at its entry

The first region's output array (its logits, as rows) is the only thing the host operations between the regions take
from it; the edge logits and the neighbour indices are still the launch contents. -/

/-- The node logits as the first region leaves them, reshaped to [8, 32768, 1]. -/
def logits (c : Dev nD) : (⟨S8x32768x1, .f32⟩ : BufTy).Contents (Elt F) :=
  shapeCast S8x32768x1 (W6 m ρ c (Proc.devRef .tc main_v17)) shapeCasts_S262144x1_S8x32768x1

/-- They are the reshaped output array of the first region. -/
theorem logits_eq (c : Dev nD) :
    logits m ρ c = shapeCast S8x32768x1 ((dat0 (V5 m ρ) c).arrAt 5 cfg0.N) shapeCasts_S262144x1_S8x32768x1 :=
  congrArg (fun A => shapeCast S8x32768x1 A shapeCasts_S262144x1_S8x32768x1) (W6_arr m ρ c 5)

theorem entry1_edges (c : Dev nD) : V8 m ρ c main_arg1 = m ((c : Thread nD τ).loc main_arg1) := by
  dsimp only [V8, W8, W7]
  simp only [hostOps1_1, hostOps1]
  after_results
  rw [W6_of_ne m ρ c main_arg1 (by decide)]
  dsimp only [W5, W4, W3, W2, W1, W0]
  simp only [hostOps0_4, hostOps0_3, hostOps0_2, hostOps0_1, hostOps0]
  after_results

theorem entry1_weights (c : Dev nD) : V8 m ρ c main_v29 = nodeSoftmax (logits m ρ c) := by
  dsimp only [V8, W8, W7]
  simp only [hostOps1_1, hostOps1]
  after_results
  rfl

end Cert.KernelIdeal.HostValue

end
-- ==== Proof.KernelTake.lean ====
/-
  The take of the neighbours' weights, read off the kernel program's last host stretch. The stretch is read in three
  consecutive pieces, each from whatever the buffers hold when the piece starts: the first wraps the indices (a negative
  index moved up by the table's length), the second tests each wrapped index against the table's range, the third
  gathers and fills. Together they are the take of what the table buffer and the index buffer hold when the stretch
  starts: then the table buffer holds the flattened node weights and the index buffer the neighbour indices as launched.
-/
import proofs.«426404_j75952201663109_3_alg».proof.Proof.KernelHost

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The stretch's first eight operations: the wrapped start indices. -/
abbrev takeOpsA : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x32768x32, .i32⟩) (broadcastInDim S8x32768x32 ![] bcast_S_S8x32768x32),
    StableHlo.TRef.binary (.of main_arg2 : StableHlo.TRef sig ⟨S8x32768x32, .i32⟩) (.of main_call2_v0 : StableHlo.TRef sig ⟨S8x32768x32, .i32⟩) (.of main_call2_v1 : StableHlo.TRef sig ⟨S8x32768x32, .i1⟩) (cmpi .slt),
    StableHlo.TRef.nullary (.of main_call2_c_0 : StableHlo.TRef sig ⟨S_, .i32⟩) (constantI S_ 32 262144#32),
    StableHlo.TRef.unary (.of main_call2_c_0 : StableHlo.TRef sig ⟨S_, .i32⟩) (.of main_call2_v2 : StableHlo.TRef sig ⟨S8x32768x32, .i32⟩) (broadcastInDim S8x32768x32 ![] bcast_S_S8x32768x32),
    StableHlo.TRef.binary (.of main_arg2 : StableHlo.TRef sig ⟨S8x32768x32, .i32⟩) (.of main_call2_v2 : StableHlo.TRef sig ⟨S8x32768x32, .i32⟩) (.of main_call2_v3 : StableHlo.TRef sig ⟨S8x32768x32, .i32⟩) addi,
    StableHlo.TRef.ternary (.of main_call2_v1 : StableHlo.TRef sig ⟨S8x32768x32, .i1⟩) (.of main_call2_v3 : StableHlo.TRef sig ⟨S8x32768x32, .i32⟩) (.of main_arg2 : StableHlo.TRef sig ⟨S8x32768x32, .i32⟩) (.of main_call2_v4 : StableHlo.TRef sig ⟨S8x32768x32, .i32⟩) select,
    StableHlo.TRef.unary main_call2_call0.v0 (.of main_call2_v5 : StableHlo.TRef sig ⟨S8x32768x32x1, .i32⟩) (broadcastInDim S8x32768x32x1 ![0, 1, 2] bcast_S8x32768x32_S8x32768x32x1_0_1_2) ]

/-- Its next ten operations: the range mask. -/
abbrev takeOpsB : List (HloOp τ sig (Elt F)) :=
  [ StableHlo.TRef.nullary (.of main_call2_c_1 : StableHlo.TRef sig ⟨S1, .i32⟩) (constantI S1 32 262143#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8x32768x32x1, .i32⟩) (broadcastInDim S8x32768x32x1 ![] bcast_S_S8x32768x32x1),
    StableHlo.TRef.binary (.of main_call2_v5 : StableHlo.TRef sig ⟨S8x32768x32x1, .i32⟩) (.of main_call2_v6 : StableHlo.TRef sig ⟨S8x32768x32x1, .i32⟩) (.of main_call2_v7 : StableHlo.TRef sig ⟨S8x32768x32x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S8x32768x32x1, .i32⟩) (broadcastInDim S8x32768x32x1 ![0, 1, 2, 3] bcast_S1x1x1x1_S8x32768x32x1_0_1_2_3),
    StableHlo.TRef.binary (.of main_call2_v5 : StableHlo.TRef sig ⟨S8x32768x32x1, .i32⟩) (.of main_call2_v9 : StableHlo.TRef sig ⟨S8x32768x32x1, .i32⟩) (.of main_call2_v10 : StableHlo.TRef sig ⟨S8x32768x32x1, .i1⟩) (cmpi .sle),
    StableHlo.TRef.binary (.of main_call2_v7 : StableHlo.TRef sig ⟨S8x32768x32x1, .i1⟩) (.of main_call2_v10 : StableHlo.TRef sig ⟨S8x32768x32x1, .i1⟩) (.of main_call2_v11 : StableHlo.TRef sig ⟨S8x32768x32x1, .i1⟩) andi,
    StableHlo.TRef.nullary (.of main_call2_c_3 : StableHlo.TRef sig ⟨S_, .i1⟩) (constantI S_ 1 1#1),
    StableHlo.TRef.binary (.of main_call2_v11 : StableHlo.TRef sig ⟨S8x32768x32x1, .i1⟩) (.of main_call2_c_3 : StableHlo.TRef sig ⟨S_, .i1⟩) (.of main_call2_v12 : StableHlo.TRef sig ⟨S8x32768x32, .i1⟩) (fun x v => Host.reduce IntOp.andi x v reducesTo_S8x32768x32x1_S8x32768x32_d3 h_S_) ]

/-- Its last four operations: the gather, the fill word and the selection. -/
abbrev takeOpsC : List (HloOp τ sig (Elt F)) :=
  [ StableHlo.TRef.binary (.of main_v30 : StableHlo.TRef sig ⟨S262144, .f32⟩) (.of main_call2_v5 : StableHlo.TRef sig ⟨S8x32768x32x1, .i32⟩) (.of main_call2_v13 : StableHlo.TRef sig ⟨S8x32768x32, .f32⟩) (fun x i => Host.gather gather_S262144_S8x32768x32x1_S8x32768x32_n_0_n_n_0_3_1 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x32768x32, .f32⟩) (broadcastInDim S8x32768x32 ![] bcast_S_S8x32768x32),
    StableHlo.TRef.ternary (.of main_call2_v12 : StableHlo.TRef sig ⟨S8x32768x32, .i1⟩) (.of main_call2_v13 : StableHlo.TRef sig ⟨S8x32768x32, .f32⟩) (.of main_call2_v14 : StableHlo.TRef sig ⟨S8x32768x32, .f32⟩) (.of main_v31 : StableHlo.TRef sig ⟨S8x32768x32, .f32⟩) select ]

/-- The stretch is the three pieces in order. -/
theorem take_split (W : Valuation τ sig (Elt F)) :
    StableHlo.after hostOps1_1 W = StableHlo.after takeOpsC (StableHlo.after takeOpsB (StableHlo.after takeOpsA W)) := rfl

theorem wrap_of (W : Valuation τ sig (Elt F)) :
    StableHlo.after takeOpsA W (Proc.devRef .tc main_call2_v5) = wrapIdx (W (Proc.devRef .tc main_arg2)) := by
  simp only [takeOpsA]
  after_results_simp
  rfl

theorem wrap_keeps_table (W : Valuation τ sig (Elt F)) :
    StableHlo.after takeOpsA W (Proc.devRef .tc main_v30) = W (Proc.devRef .tc main_v30) := by
  simp only [takeOpsA]
  after_results_simp

theorem mask_of (W : Valuation τ sig (Elt F)) :
    StableHlo.after takeOpsB W (Proc.devRef .tc main_call2_v12) = inTable (W (Proc.devRef .tc main_call2_v5)) := by
  simp only [takeOpsB]
  after_results_simp
  refine eq_of_heq ((cast_heq _ _).trans (heq_of_eq ?_))
  unfold inTable
  rfl

theorem mask_keeps_idx (W : Valuation τ sig (Elt F)) :
    StableHlo.after takeOpsB W (Proc.devRef .tc main_call2_v5) = W (Proc.devRef .tc main_call2_v5) := by
  simp only [takeOpsB]
  after_results_simp

theorem mask_keeps_table (W : Valuation τ sig (Elt F)) :
    StableHlo.after takeOpsB W (Proc.devRef .tc main_v30) = W (Proc.devRef .tc main_v30) := by
  simp only [takeOpsB]
  after_results_simp

theorem fill_of (W : Valuation τ sig (Elt F)) :
    StableHlo.after takeOpsC W (Proc.devRef .tc main_v31)
      = select (W (Proc.devRef .tc main_call2_v12) : (⟨S8x32768x32, .i1⟩ : BufTy).Contents (Elt F))
          (gatherAt (W (Proc.devRef .tc main_v30)) (W (Proc.devRef .tc main_call2_v5)))
          (broadcastInDim S8x32768x32 ![] bcast_S_S8x32768x32 (constant S_ .f32 0x7FC00000#32)) := by
  simp only [takeOpsC]
  after_results_simp
  rfl

/-- The whole stretch, from any contents W of the buffers at its start. -/
theorem take_of (W : Valuation τ sig (Elt F)) :
    StableHlo.after hostOps1_1 W (Proc.devRef .tc main_v31)
      = takeFill (W (Proc.devRef .tc main_v30)) (W (Proc.devRef .tc main_arg2)) := by
  rw [take_split, fill_of, mask_of, mask_keeps_table, mask_keeps_idx, wrap_of, wrap_keeps_table]
  rfl

variable (m : (ℓ : Loc nD τ sig) → Buf (Elt F) ℓ) (ρ : Dev nD → PrngReg)

/-- The table buffer when the take starts: the node weights, flattened. -/
theorem table_at_take (c : Dev nD) :
    W7 m ρ c (Proc.devRef .tc main_v30) = shapeCast S262144 (nodeSoftmax (logits m ρ c)) shapeCasts_S8x32768x1_S262144 := by
  dsimp only [W7]
  simp only [hostOps1]
  after_results
  rfl

/-- The index buffer when the take starts: the neighbour indices as launched. -/
theorem idx_at_take (c : Dev nD) : W7 m ρ c (Proc.devRef .tc main_arg2) = m ((c : Thread nD τ).loc main_arg2) := by
  dsimp only [W7]
  simp only [hostOps1]
  after_results
  rw [W6_of_ne m ρ c main_arg2 (by decide)]
  dsimp only [W5, W4, W3, W2, W1, W0]
  simp only [hostOps0_4, hostOps0_3, hostOps0_2, hostOps0_1, hostOps0]
  after_results

theorem entry1_neighbours (c : Dev nD) :
    V8 m ρ c main_v31
      = takeFill (shapeCast S262144 (nodeSoftmax (logits m ρ c)) shapeCasts_S8x32768x1_S262144) (m ((c : Thread nD τ).loc main_arg2)) :=
  (take_of (W7 m ρ c)).trans (by rw [table_at_take, idx_at_take])

end Cert.KernelIdeal.HostValue

end
-- ==== Proof.Spec.lean ====
/-
  What the two programs compute, written once over literal shapes and explicit coordinates.

  A node (b, n) of the graph has a feature row x[b, n, :] of 128 reals. Its logit is a two-layer perceptron,
  logit(b, n) = Σ_h max(Σ_d x[b,n,d]·W1[h,d] + b1[h], 0) · W2[0,h] + b2[0], with 64 hidden units. The kernel
  computes it on the rows flattened to 262144 = 8·32768, with the first weight matrix transposed (flatLogit); the
  reference computes it on the rank-3 array (nodeLogit). Nothing here needs a law of the extended reals: the two
  are the same sums of the same products, read at differently arranged indices.

  An output entry (b, n) blends the node's own weight with its neighbours': with e_k = exp(l[b,n,k] − max_k l[b,n,k])
  the edge weights are e_k / Σ_k e_k, and blend(b, n) = w[b,n,0]·½ + (Σ_k (e_k / Σ e)·nj[b,n,k])·½, where nj
  holds the neighbours' node weights.
-/
import Idealize.ShloMosaic.PureOps.Ideal
import Idealize.ShloMosaic.Lib.ValueIdx

noncomputable section

namespace Cert.Spec

open Idealize.ShloMosaic Idealize.ShloMosaic.ValueIdx

/-- The zero both programs clamp at and start their sums from (the f32 word of +0.0). -/
abbrev zeroW : EReal := Ideal.ofBits .f32 0x00000000#32
/-- The weight ½ of the blend (the f32 word of 0.5). -/
abbrev halfW : EReal := Ideal.ofBits .f32 0x3F000000#32
/-- The value a maximum starts from (the f32 word of −∞). -/
abbrev negInfW : EReal := Ideal.ofBits .f32 0xFF800000#32

/-- The perceptron's logit of flattened row r, the first weight matrix given transposed ([128, 64]) and the
    biases as rows. -/
def flatLogit (x : (⟨2, ![262144, 128]⟩ : Shape).Idx → EReal) (w : (⟨2, ![128, 64]⟩ : Shape).Idx → EReal)
    (b1 : (⟨2, ![1, 64]⟩ : Shape).Idx → EReal) (w2 : (⟨2, ![1, 64]⟩ : Shape).Idx → EReal)
    (b2 : (⟨2, ![1, 1]⟩ : Shape).Idx → EReal) (r : Fin 262144) : EReal :=
  (∑ h : Fin 64, max ((∑ d : Fin 128, x (ix2 r d) * w (ix2 d h)) + b1 (ix2 0 h)) zeroW * w2 (ix2 0 h)) + b2 (ix2 0 0)

/-- The same as an array of shape [262144, 1]. -/
def flatLogitArr (x : (⟨2, ![262144, 128]⟩ : Shape).Idx → EReal) (w : (⟨2, ![128, 64]⟩ : Shape).Idx → EReal)
    (b1 : (⟨2, ![1, 64]⟩ : Shape).Idx → EReal) (w2 : (⟨2, ![1, 64]⟩ : Shape).Idx → EReal)
    (b2 : (⟨2, ![1, 1]⟩ : Shape).Idx → EReal) : (⟨2, ![262144, 1]⟩ : Shape).Idx → EReal :=
  fun i => flatLogit x w b1 w2 b2 (i 0)

/-- The perceptron's logit of node (b, n), on the arrays as the entry point receives them. -/
def nodeLogit (x : (⟨3, ![8, 32768, 128]⟩ : Shape).Idx → EReal) (w1 : (⟨2, ![64, 128]⟩ : Shape).Idx → EReal)
    (b1 : (⟨1, ![64]⟩ : Shape).Idx → EReal) (w2 : (⟨2, ![1, 64]⟩ : Shape).Idx → EReal)
    (b2 : (⟨1, ![1]⟩ : Shape).Idx → EReal) (b : Fin 8) (n : Fin 32768) : EReal :=
  (∑ h : Fin 64, max ((∑ d : Fin 128, x (ix3 b n d) * w1 (ix2 h d)) + b1 (ix1 h)) zeroW * w2 (ix2 0 h)) + b2 (ix1 0)

/-- The same as an array of shape [8, 32768, 1]. -/
def nodeLogitArr (x : (⟨3, ![8, 32768, 128]⟩ : Shape).Idx → EReal) (w1 : (⟨2, ![64, 128]⟩ : Shape).Idx → EReal)
    (b1 : (⟨1, ![64]⟩ : Shape).Idx → EReal) (w2 : (⟨2, ![1, 64]⟩ : Shape).Idx → EReal)
    (b2 : (⟨1, ![1]⟩ : Shape).Idx → EReal) : (⟨3, ![8, 32768, 1]⟩ : Shape).Idx → EReal :=
  fun i => nodeLogit x w1 b1 w2 b2 (i 0) (i 1)

/-- The largest edge logit of node (b, n). -/
def rowMax (el : (⟨3, ![8, 32768, 32]⟩ : Shape).Idx → EReal) (b : Fin 8) (n : Fin 32768) : EReal :=
  (Finset.univ : Finset (Fin 32)).fold max negInfW (fun k => el (ix3 b n k))

/-- The shifted exponential of edge k of node (b, n). -/
def edgeExp (el : (⟨3, ![8, 32768, 32]⟩ : Shape).Idx → EReal) (b : Fin 8) (n : Fin 32768) (k : Fin 32) : EReal :=
  Ideal.exp (el (ix3 b n k) - rowMax el b n)

/-- The blend of node (b, n): half its own weight plus half the edge-softmax average of its neighbours' weights. -/
def blend (el nj : (⟨3, ![8, 32768, 32]⟩ : Shape).Idx → EReal) (nw : (⟨3, ![8, 32768, 1]⟩ : Shape).Idx → EReal)
    (b : Fin 8) (n : Fin 32768) : EReal :=
  nw (ix3 b n 0) * halfW
    + (∑ k : Fin 32, Ideal.div (edgeExp el b n k) (∑ k' : Fin 32, edgeExp el b n k') * nj (ix3 b n k)) * halfW

/-- The same as an array of shape [8, 32768, 1]. -/
def blendArr (el nj : (⟨3, ![8, 32768, 32]⟩ : Shape).Idx → EReal) (nw : (⟨3, ![8, 32768, 1]⟩ : Shape).Idx → EReal) :
    (⟨3, ![8, 32768, 1]⟩ : Shape).Idx → EReal :=
  fun i => blend el nj nw (i 0) (i 1)

end Cert.Spec

end
-- ==== Proof.KernelMlp.lean ====
/- Region 0 of the kernel (the perceptron over flattened rows): the array its output window leaves. -/
import proofs.«426404_j75952201663109_3_alg».proof.Proof.Gen.KernelIdeal.Frame
import proofs.«426404_j75952201663109_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MlpValue

open Idealize.ShloMosaic Idealize.ShloMosaic.TcCoe Idealize.SL.Sem Idealize.ShloMosaic.ValueIdx
open Cert.KernelIdeal Cert.KernelIdeal.Gen

/-! ## The matrix product at an entry -/

/- The two operands' indices at output entry i and contraction position q, axis by axis: the left operand is read at
   (i 0, q), the right at (q, i 1). -/
theorem lhs_mm_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_mm_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_mm_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_mm_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- Entry (p, h) of the product of an [8192,128] block with a [128,64] matrix, into the zero accumulator:
    the sum over the 128 columns d of l[p,d] · r[d,h]. -/
theorem mm_apply (l : FVec Ideal S8192x128 .bf16) (r : FVec Ideal S128x64 .bf16) (p : Fin 8192) (h : Fin 64) :
    matmul dot_S8192x128_S128x64_S8192x64_1_0_0_1_n_n none l r (constant (F := Ideal) S8192x64 .f32 0x00000000#32) (ix2 p h)
      = ∑ d : Fin 128, l (ix2 p d) * r (ix2 d h) := by
  simp only [matmul]
  rw [Ideal.matmul_constant_zero_apply, ← Equiv.sum_comp (ValueIdx.contrEquiv1 dot_S8192x128_S128x64_S8192x64_1_0_0_1_n_n 128 rfl rfl).symm]
  refine Finset.sum_congr rfl fun k _ => ?_
  have hk := ValueIdx.contrEquiv1_symm_val dot_S8192x128_S128x64_S8192x64_1_0_0_1_n_n 128 rfl rfl k
  have el : dot_S8192x128_S128x64_S8192x64_1_0_0_1_n_n.lhsIdx (ix2 p h) ((ValueIdx.contrEquiv1 dot_S8192x128_S128x64_S8192x64_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S8192x128_S128x64_S8192x64_1_0_0_1_n_n.rhsIdx (ix2 p h) ((ValueIdx.contrEquiv1 dot_S8192x128_S128x64_S8192x64_1_0_0_1_n_n 128 rfl rfl).symm k) = ix2 k h := funext fun a => Fin.ext (by
    match a with
    | ⟨0, _⟩ => exact (rhs_mm_0 _ _).trans hk
    | ⟨1, _⟩ => exact rhs_mm_1 _ _)
  rw [el, er]

/-! ## The re-laid pieces at an entry -/

section Layout
variable {α : Type}

/-- A column of length a cast to [a, 1] reads, at (p, u), the operand at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [1, 1] array broadcast to [a, 1] reads its one entry everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end Layout

/-- The sum along the 64 lanes of an [8192, 64] block, started from the zero word, at row p. -/
theorem laneSum_apply (src : FVec Ideal S8192x64 .f32) (h : S8192x64.Reduces [1] S8192) (hφ : FKind.Formats .f32)
    (hacc : (0x00000000#32 : BitVec 32) = 0x00000000#32) (p : Fin 8192) :
    multiReduction .add [1] S8192 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! ## The body's arithmetic at a row -/

/-- Row p of what the body stores: the 64 hidden units' clamped pre-activations, each times its second-layer weight,
    summed, plus the second bias. -/
theorem pay_apply (x0 : Vec Ideal S8192x128 .f32) (x1 : Vec Ideal S128x64 .bf16) (x2 x3 : Vec Ideal S1x64 .f32)
    (x4 : Vec Ideal S1x1 .f32) (p : Fin 8192) :
    k0_pay1 (F := Ideal) x0 x1 x2 x3 x4 (ix2 p (0 : Fin 1))
      = (∑ h : Fin 64, max ((∑ d : Fin 128, x0 (ix2 p d) * x1 (ix2 d h)) + x2 (ix2 (0 : Fin 1) h)) Cert.Spec.zeroW
            * x3 (ix2 (0 : Fin 1) h)) + x4 (ix2 (0 : Fin 1) (0 : Fin 1)) := by
  unfold k0_pay1
  simp only [shapeCast_self]
  rw [addf_apply, shapeCast_a_a1_apply, broadcastTo_11_a1_apply, laneSum_apply]
  refine congrArg (· + x4 (ix2 (0 : Fin 1) (0 : Fin 1))) (Finset.sum_congr rfl fun h _ => ?_)
  rw [mulf_apply, maximumf_apply, addf_apply, broadcast_apply, broadcastTo_1b_ab_apply, broadcastTo_1b_ab_apply, mm_apply]
  rfl

/-! ## The blocks a grid point reads, and the block it writes back -/

theorem zeroOff : (![0, 0] : Fin 2 → Nat) = fun _ => 0 := funext fun a => by fin_cases a <;> rfl

/-- The windows' block indices over the grid: the row window and the output window sit at block (t, 0) at point t;
    the weight and bias windows at block (0, 0) at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

/-- Row p of the row window's block at point t is row 8192·t + p of the flattened rows. -/
theorem rows_block (c : Dev nD) (t : Fin cfg0.N) (p : Fin 8192) (d : Fin 128) (r : Fin 262144)
    (hr : r.val = t.val * 8192 + p.val) :
    (iblk0 (F := Ideal) V c 0 t : Vec Ideal S8192x128 .f32) (ix2 p d) = (V c main_v16 : S262144x128.Idx → EReal) (ix2 r d) := by
  obtain ⟨e0, e1, -⟩ := index_facts t
  unfold iblk0
  show (V c main_v16 : S262144x128.Idx → EReal) (((cfg0.win 0).blk t).view.emb (ix2 p d)) = _
  refine congrArg _ (funext fun a => Fin.ext ?_)
  match a with
  | ⟨0, _⟩ => show win0_0.index t (0 : Fin 2) * 8192 + 1 * p.val = r.val; omega
  | ⟨1, _⟩ => show win0_0.index t (1 : Fin 2) * 128 + 1 * d.val = d.val; omega

/-- The first weights' block at any point is the whole [128, 64] matrix. -/
theorem w1_block (c : Dev nD) (t : Fin cfg0.N) :
    (iblk0 (F := Ideal) V c 1 t : Vec Ideal S128x64 .bf16) = (V c main_v13 : S128x64.Idx → EReal) := by
  obtain ⟨-, -, e0, e1, -⟩ := index_facts t
  funext y
  unfold iblk0
  show (V c main_v13 : S128x64.Idx → EReal) (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The first bias row's block at any point is the whole row. -/
theorem b1_block (c : Dev nD) (t : Fin cfg0.N) :
    (iblk0 (F := Ideal) V c 2 t : Vec Ideal S1x64 .f32) = (V c main_v14 : S1x64.Idx → EReal) := by
  obtain ⟨-, -, -, -, e0, e1, -⟩ := index_facts t
  funext y
  unfold iblk0
  show (V c main_v14 : S1x64.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The second weights' block at any point is the whole row. -/
theorem w2_block (c : Dev nD) (t : Fin cfg0.N) :
    (iblk0 (F := Ideal) V c 3 t : Vec Ideal S1x64 .f32) = (V c main_v11 : S1x64.Idx → EReal) := by
  obtain ⟨-, -, -, -, -, -, e0, e1, -⟩ := index_facts t
  funext y
  unfold iblk0
  show (V c main_v11 : S1x64.Idx → EReal) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second bias's block at any point is the whole [1, 1] array. -/
theorem b2_block (c : Dev nD) (t : Fin cfg0.N) :
    (iblk0 (F := Ideal) V c 4 t : Vec Ideal S1x1 .f32) = (V c main_v15 : S1x1.Idx → EReal) := by
  obtain ⟨-, -, -, -, -, -, -, -, e0, e1, -⟩ := index_facts t
  funext y
  unfold iblk0
  show (V c main_v15 : S1x1.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

end Blocks

/-- Row p of the body's result on blocks that are the arrays' parts: the logit of the flattened row the block's row p is. -/
theorem row_logit (x0 : Vec Ideal S8192x128 .f32) (x1 : Vec Ideal S128x64 .bf16) (x2 x3 : Vec Ideal S1x64 .f32)
    (x4 : Vec Ideal S1x1 .f32) (X : S262144x128.Idx → EReal) (W : S128x64.Idx → EReal) (B1 W2 : S1x64.Idx → EReal)
    (B2 : S1x1.Idx → EReal) (p : Fin 8192) (r : Fin 262144)
    (h0 : ∀ d : Fin 128, x0 (ix2 p d) = X (ix2 r d)) (h1 : x1 = W) (h2 : x2 = B1) (h3 : x3 = W2) (h4 : x4 = B2) :
    k0_pay1 (F := Ideal) x0 x1 x2 x3 x4 (ix2 p (0 : Fin 1)) = Cert.Spec.flatLogit X W B1 W2 B2 r := by
  subst h1 h2 h3 h4
  rw [pay_apply]
  unfold Cert.Spec.flatLogit
  simp only [h0]

/-! ## The array the output window leaves -/

variable (V : (c : Dev nD) → (b : Ref sig .tc) → Buf (Elt Ideal) ((c : Thread nD τ).loc b))

/-- What point t writes back is block t of the logits of the flattened rows. -/
theorem flushed_eq (c : Dev nD) (t : Fin cfg0.N) :
    (dat0 (F := Ideal) V c).flushed 5 t
      = ((cfg0.win 5).blk t).view.read (Elt Ideal)
          (Cert.Spec.flatLogitArr (V c main_v16) (V c main_v13) (V c main_v14) (V c main_v11) (V c main_v15)) := by
  show (cfg0.win 5).cut (grid0.coords t) ((dat0 V c).after 5 t) = _
  rw [after0_5]
  unfold out0_5
  rw [View.canon_unit_zero zeroOff]
  simp only [View.ld_unit_zero (S := S8192x128) zeroOff, View.ld_unit_zero (S := S128x64) zeroOff,
    View.ld_unit_zero (S := S1x64) zeroOff, View.ld_unit_zero (S := S1x1) zeroOff]
  obtain ⟨-, -, -, -, -, -, -, -, -, -, e0, e1⟩ := index_facts t
  funext j
  have hj0 : (j 0).val < 8192 := (j 0).isLt
  have hj1 : (j 1).val < 1 := (j 1).isLt
  have hj : (cfg0.win 5).xinj (grid0.coords t) j = ix2 (⟨(j 0).val, hj0⟩ : Fin 8192) (0 : Fin 1) :=
    funext fun a => Fin.ext (by
      match a with
      | ⟨0, _⟩ => rfl
      | ⟨1, _⟩ => show (j 1).val = 0; omega)
  show k0_pay1 (F := Ideal) (iblk0 V c 0 t) (iblk0 V c 1 t) (iblk0 V c 2 t) (iblk0 V c 3 t) (iblk0 V c 4 t)
      ((cfg0.win 5).xinj (grid0.coords t) j)
    = Cert.Spec.flatLogit (V c main_v16) (V c main_v13) (V c main_v14) (V c main_v11) (V c main_v15)
        ((((cfg0.win 5).blk t).view.emb j) 0)
  rw [hj]
  refine row_logit _ _ _ _ _ _ _ _ _ _ _ _ (fun d => rows_block V c t _ d _ ?_) (w1_block V c t) (b1_block V c t)
    (w2_block V c t) (b2_block V c t)
  show win0_5.index t (0 : Fin 2) * 8192 + 1 * (j 0).val = t.val * 8192 + (j 0).val
  omega

/-- An index of the [262144, 1] array is in point t's block iff each coordinate is in the block's range on its axis. -/
theorem mem_blk (t : Fin cfg0.N) (i : S262144x1.Idx) :
    i ∈ ((cfg0.win 5).blk t).view.set ↔ ∀ a : Fin 2, win0_5.index t a * S8192x1.size a ≤ (i a).val
      ∧ (i a).val < win0_5.index t a * S8192x1.size a + S8192x1.size a := by
  show i ∈ ((View.whole main_v17).slice (win0_5.rect t)).set ↔ _
  rw [View.set_slice_whole, Rect.mem_set_unit]
  exact Iff.rfl

/-- Row r of the output lies in the block of point r / 8192, and every point writes back. -/
theorem covered (i : S262144x1.Idx) :
    ∃ t : Fin cfg0.N, (cfg0.win 5).flush t = true ∧ i ∈ ((cfg0.win 5).blk t).view.set := by
  have hi0 : (i 0).val < 262144 := (i 0).isLt
  have hi1 : (i 1).val < 1 := (i 1).isLt
  have hN : grid0.N = 32 := N_0
  let t : Fin cfg0.N := ⟨(i 0).val / 8192, by show (i 0).val / 8192 < grid0.N; omega⟩
  obtain ⟨-, -, -, -, -, -, -, -, -, -, e0, e1⟩ := index_facts t
  have ht : t.val = (i 0).val / 8192 := rfl
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 1 ≤ (i 1).val ∧ (i 1).val < win0_5.index t (1 : Fin 2) * 1 + 1; omega

/-- The array the output window leaves after the region: every point writes back its block of the flattened rows'
    logits, and the 32 blocks of 8192 rows cover the 262144 rows. -/
theorem arr0_eq (c : Dev nD) :
    (dat0 (F := Ideal) V c).arrAt 5 cfg0.N
      = Cert.Spec.flatLogitArr (V c main_v16) (V c main_v13) (V c main_v14) (V c main_v11) (V c main_v15) :=
  (dat0 (F := Ideal) V c).arrAt_eq_of_cover 5 _ (fun t _ => flushed_eq V c t) covered

end Cert.KernelIdeal.MlpValue

end
-- ==== Proof.KernelBlend.lean ====
/- Region 1 of the kernel (edge softmax, neighbour average and blend): the array its output window leaves. -/
import proofs.«426404_j75952201663109_3_alg».proof.Proof.Gen.KernelIdeal.Frame
import proofs.«426404_j75952201663109_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlendValue

open Idealize.ShloMosaic Idealize.ShloMosaic.TcCoe Idealize.SL.Sem Idealize.ShloMosaic.ValueIdx
open Cert.KernelIdeal Cert.KernelIdeal.Gen
open Cert.Spec (halfW negInfW)

variable (V : (c : Dev nD) → (b : Ref sig .tc) → Buf (Elt Ideal) ((c : Thread nD τ).loc b))

section Layout
variable {α : Type}

/-- A `[1, a]` array cast to `[1, a, 1]` reads, at `(u, i, w)`, the operand at `(0, i)`. -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_three, Shape.rowMajor_val_two]
    show 0 * a + i.val = (u.val * a + i.val) * 1 + w.val
    rw [hu, hw, Nat.zero_mul, Nat.zero_add, Nat.mul_one, Nat.add_zero])

/-- A `[1, a, 1]` array broadcast to `[1, a, b]` reads, at `(u, p, c)`, the operand's one entry of row `p`. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (p : Fin a) (c : Fin b) :
    broadcastTo ⟨3, ![1, a, b]⟩ v h (ix3 u p c) = v (ix3 (0 : Fin 1) p (0 : Fin 1)) := by
  refine broadcastTo_apply v h (ix3 u p c) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

end Layout

section Payload

/-- The source index a lane reduction of a `[1, 4096, 32]` block reads for row `q` at lane `k` is `(0, q, k)`. -/
theorem lift_row (h : S1x4096x32.Reduces [2] S1x4096) (q : Fin 4096) (k : Fin 32) :
    h.lift (ix2 (0 : Fin 1) q) k = ix3 (0 : Fin 1) q k :=
  funext fun c => Fin.ext (by
    match c with
    | ⟨0, _⟩ => rfl
    | ⟨1, _⟩ => rfl
    | ⟨2, _⟩ => rfl)

/-- The lane sum of a `[1, 4096, 32]` block at row `q` is the sum over the 32 lanes of that row. -/
theorem laneSum_row (v : FVec Ideal S1x4096x32 .f32) (q : Fin 4096) (hφ : FKind.Formats .f32)
    (hacc : (0x00000000#32 : BitVec 32) = 0x00000000#32) :
    multiReduction .add [2] S1x4096 v 0x00000000#32 reduces_S1x4096x32_S1x4096 hφ hacc (ix2 (0 : Fin 1) q)
      = ∑ k : Fin 32, v (ix3 (0 : Fin 1) q k) := by
  refine (Ideal.multiReduction_add_single v _ reduces_S1x4096x32_S1x4096 hφ hacc (ix2 (0 : Fin 1) q)).trans ?_
  exact Finset.sum_congr rfl fun k _ => congrArg v (lift_row _ q k)

/-- The lane maximum of a `[1, 4096, 32]` block at row `q` is the fold of `max` from −∞ over the 32 lanes of that row. -/
theorem laneMax_row (v : FVec Ideal S1x4096x32 .f32) (q : Fin 4096) (hφ : FKind.Formats .f32)
    (hacc : (0xFF800000#32 : BitVec 32) = 0xFF800000#32) :
    multiReduction .maximumf [2] S1x4096 v 0xFF800000#32 reduces_S1x4096x32_S1x4096 hφ hacc (ix2 (0 : Fin 1) q)
      = (Finset.univ : Finset (Fin 32)).fold max negInfW (fun k => v (ix3 (0 : Fin 1) q k)) := by
  refine (Ideal.multiReduction_maximumf_single v _ reduces_S1x4096x32_S1x4096 hφ hacc (ix2 (0 : Fin 1) q)).trans ?_
  exact congrArg (fun f : Fin 32 → EReal => (Finset.univ : Finset (Fin 32)).fold max negInfW f)
    (funext fun k => congrArg v (lift_row _ q k))

end Payload

section PayloadRow

/-- The exponential of a vector at an index is the exponential of the element. -/
theorem exp_at {s : Shape} {φ : FTy} (v : FVec Ideal s φ) (i : s.Idx) : exp v i = Ideal.exp (v i) := rfl

/-- The body's arithmetic at row `q` of the block: half the node's own weight plus half the sum, over the 32 lanes of
    the row, of the lane's shifted exponential over the row's sum of them, times the neighbour's weight. The shift is
    the row's largest logit. -/
theorem pay_row (x0 x1 : Vec Ideal S1x4096x32 .f32) (x3 : Vec Ideal S1x4096x1 .f32) (q : Fin 4096) :
    k1_pay1 (F := Ideal) x0 x1 x3 (ix3 (0 : Fin 1) q (0 : Fin 1))
      = x3 (ix3 (0 : Fin 1) q (0 : Fin 1)) * halfW
        + (∑ k : Fin 32,
            Ideal.div
              (Ideal.exp (x0 (ix3 (0 : Fin 1) q k)
                - (Finset.univ : Finset (Fin 32)).fold max negInfW (fun k' => x0 (ix3 (0 : Fin 1) q k'))))
              (∑ k' : Fin 32, Ideal.exp (x0 (ix3 (0 : Fin 1) q k')
                - (Finset.univ : Finset (Fin 32)).fold max negInfW (fun k'' => x0 (ix3 (0 : Fin 1) q k''))))
            * x1 (ix3 (0 : Fin 1) q k)) * halfW := by
  unfold k1_pay1
  simp only [addf_apply, mulf_apply, broadcast_apply, shapeCast_self, shapeCast_1a_1a1_apply]
  rw [laneSum_row]
  simp only [mulf_apply, divf_apply, exp_at, subf_apply, broadcastTo_1a1_1ab_apply, shapeCast_1a_1a1_apply]
  rw [laneSum_row, laneMax_row]
  simp only [exp_at, subf_apply, broadcastTo_1a1_1ab_apply, shapeCast_1a_1a1_apply]
  rw [laneMax_row]
  rfl

end PayloadRow

section Blocks

/-- The three zero offsets, as the constant function. -/
theorem hz3 : (![0, 0, 0] : Fin 3 → Nat) = fun _ => 0 := funext fun a => by fin_cases a <;> rfl

/-- At each of the 64 grid points, each input window's block index is the output window's on the first two axes and 0
    on the last; the output's first two entries are below 8 and its last is 0. -/
theorem idx_facts : ∀ t : Fin cfg1.N,
    (win1_0.index t (0 : Fin 3) = win1_3.index t (0 : Fin 3) ∧ win1_0.index t (1 : Fin 3) = win1_3.index t (1 : Fin 3)
      ∧ win1_0.index t (2 : Fin 3) = 0)
    ∧ (win1_1.index t (0 : Fin 3) = win1_3.index t (0 : Fin 3) ∧ win1_1.index t (1 : Fin 3) = win1_3.index t (1 : Fin 3)
      ∧ win1_1.index t (2 : Fin 3) = 0)
    ∧ (win1_2.index t (0 : Fin 3) = win1_3.index t (0 : Fin 3) ∧ win1_2.index t (1 : Fin 3) = win1_3.index t (1 : Fin 3)
      ∧ win1_2.index t (2 : Fin 3) = 0)
    ∧ win1_3.index t (0 : Fin 3) < 8 ∧ win1_3.index t (1 : Fin 3) < 8 ∧ win1_3.index t (2 : Fin 3) = 0 :=
  (by decide +kernel : ∀ t : Fin grid1.N, _)

/-- Every pair (batch, block of 4096 rows) is some grid point's. -/
theorem idx_onto : ∀ (b g : Fin 8), ∃ t : Fin cfg1.N,
    win1_3.index t (0 : Fin 3) = b.val ∧ win1_3.index t (1 : Fin 3) = g.val :=
  (by decide +kernel : ∀ (b g : Fin 8), ∃ t : Fin grid1.N,
    win1_3.index t (0 : Fin 3) = b.val ∧ win1_3.index t (1 : Fin 3) = g.val)

/-- Row `q`, lane `k` of the edge-logit block at point `t` is entry `(b, n, k)` of the edge logits, `b` the point's
    batch and `n` its block of rows times 4096 plus `q`. -/
theorem read_el (c : Dev nD) (t : Fin cfg1.N) (q : Fin 4096) (k : Fin 32) (b : Fin 8) (n : Fin 32768)
    (hb : b.val = win1_3.index t (0 : Fin 3)) (hn : n.val = win1_3.index t (1 : Fin 3) * 4096 + q.val) :
    (iblk1 (F := Ideal) V c 0 t : Vec Ideal S1x4096x32 .f32) (ix3 (0 : Fin 1) q k)
      = (V c main_arg1 : S8x32768x32.Idx → EReal) (ix3 b n k) := by
  obtain ⟨⟨e0, e1, e2⟩, -⟩ := idx_facts t
  unfold iblk1
  show V c main_arg1 (((cfg1.win 0).blk t).view.emb (ix3 (0 : Fin 1) q k)) = V c main_arg1 (ix3 b n k)
  refine congrArg _ (funext fun a => Fin.ext ?_)
  match a with
  | ⟨0, _⟩ => show win1_0.index t (0 : Fin 3) * 1 + 1 * 0 = b.val; omega
  | ⟨1, _⟩ => show win1_0.index t (1 : Fin 3) * 4096 + 1 * q.val = n.val; omega
  | ⟨2, _⟩ => show win1_0.index t (2 : Fin 3) * 32 + 1 * k.val = k.val; omega

/-- The same for the gathered neighbour weights. -/
theorem read_nj (c : Dev nD) (t : Fin cfg1.N) (q : Fin 4096) (k : Fin 32) (b : Fin 8) (n : Fin 32768)
    (hb : b.val = win1_3.index t (0 : Fin 3)) (hn : n.val = win1_3.index t (1 : Fin 3) * 4096 + q.val) :
    (iblk1 (F := Ideal) V c 1 t : Vec Ideal S1x4096x32 .f32) (ix3 (0 : Fin 1) q k)
      = (V c main_v31 : S8x32768x32.Idx → EReal) (ix3 b n k) := by
  obtain ⟨-, ⟨e0, e1, e2⟩, -⟩ := idx_facts t
  unfold iblk1
  show V c main_v31 (((cfg1.win 1).blk t).view.emb (ix3 (0 : Fin 1) q k)) = V c main_v31 (ix3 b n k)
  refine congrArg _ (funext fun a => Fin.ext ?_)
  match a with
  | ⟨0, _⟩ => show win1_1.index t (0 : Fin 3) * 1 + 1 * 0 = b.val; omega
  | ⟨1, _⟩ => show win1_1.index t (1 : Fin 3) * 4096 + 1 * q.val = n.val; omega
  | ⟨2, _⟩ => show win1_1.index t (2 : Fin 3) * 32 + 1 * k.val = k.val; omega

/-- Row `q` of the node-weight block at point `t` is entry `(b, n, 0)` of the node weights. -/
theorem read_nw (c : Dev nD) (t : Fin cfg1.N) (q : Fin 4096) (b : Fin 8) (n : Fin 32768)
    (hb : b.val = win1_3.index t (0 : Fin 3)) (hn : n.val = win1_3.index t (1 : Fin 3) * 4096 + q.val) :
    (iblk1 (F := Ideal) V c 2 t : Vec Ideal S1x4096x1 .f32) (ix3 (0 : Fin 1) q (0 : Fin 1))
      = (V c main_v29 : S8x32768x1.Idx → EReal) (ix3 b n (0 : Fin 1)) := by
  obtain ⟨-, -, ⟨e0, e1, e2⟩, -⟩ := idx_facts t
  unfold iblk1
  show V c main_v29 (((cfg1.win 2).blk t).view.emb (ix3 (0 : Fin 1) q (0 : Fin 1))) = V c main_v29 (ix3 b n (0 : Fin 1))
  refine congrArg _ (funext fun a => Fin.ext ?_)
  match a with
  | ⟨0, _⟩ => show win1_2.index t (0 : Fin 3) * 1 + 1 * 0 = b.val; omega
  | ⟨1, _⟩ => show win1_2.index t (1 : Fin 3) * 4096 + 1 * q.val = n.val; omega
  | ⟨2, _⟩ => show win1_2.index t (2 : Fin 3) * 1 + 1 * 0 = 0; omega

/-- Row `q` of the output block at point `t` lies at entry `(b, n, 0)` of the output array. -/
theorem emb_out (t : Fin cfg1.N) (q : Fin 4096) (b : Fin 8) (n : Fin 32768)
    (hb : b.val = win1_3.index t (0 : Fin 3)) (hn : n.val = win1_3.index t (1 : Fin 3) * 4096 + q.val) :
    (((cfg1.win 3).blk t).view.emb (ix3 (0 : Fin 1) q (0 : Fin 1)) : S8x32768x1.Idx) = ix3 b n (0 : Fin 1) := by
  obtain ⟨-, -, -, -, -, e2⟩ := idx_facts t
  refine funext fun a => Fin.ext ?_
  match a with
  | ⟨0, _⟩ => show win1_3.index t (0 : Fin 3) * 1 + 1 * 0 = b.val; omega
  | ⟨1, _⟩ => show win1_3.index t (1 : Fin 3) * 4096 + 1 * q.val = n.val; omega
  | ⟨2, _⟩ => show win1_3.index t (2 : Fin 3) * 1 + 1 * 0 = 0; omega

end Blocks

section Final

/-- What point `t` writes back is its block of the blend of the three input arrays. -/
theorem flushed_eq (c : Dev nD) (t : Fin cfg1.N) :
    (dat1 (F := Ideal) V c).flushed 3 t
      = ((cfg1.win 3).blk t).view.read (Elt Ideal)
          (Cert.Spec.blendArr (V c main_arg1) (V c main_v31) (V c main_v29)) := by
  show (cfg1.win 3).cut (grid1.coords t) ((dat1 V c).after 3 t) = _
  rw [after1_3]
  unfold out1_3
  rw [View.canon_unit_zero hz3]
  simp only [View.ld_unit_zero (S := S1x4096x32) hz3, View.ld_unit_zero (S := S1x4096x1) hz3]
  obtain ⟨-, -, -, h0, h1, -⟩ := idx_facts t
  refine funext fun (y : S1x4096x1.Idx) => ?_
  obtain ⟨u, q, w, rfl⟩ : ∃ (u : Fin 1) (q : Fin 4096) (w : Fin 1), y = ix3 u q w := ⟨y 0, y 1, y 2, eq_ix3 y⟩
  obtain rfl := Fin.eq_zero u
  obtain rfl := Fin.eq_zero w
  have hq : q.val < 4096 := q.isLt
  show k1_pay1 (F := Ideal) (iblk1 V c 0 t) (iblk1 V c 1 t) (iblk1 V c 2 t) (ix3 (0 : Fin 1) q (0 : Fin 1))
    = Cert.Spec.blendArr (V c main_arg1) (V c main_v31) (V c main_v29)
        (((cfg1.win 3).blk t).view.emb (ix3 (0 : Fin 1) q (0 : Fin 1)))
  rw [pay_row, emb_out t q ⟨win1_3.index t (0 : Fin 3), h0⟩ ⟨win1_3.index t (1 : Fin 3) * 4096 + q.val, by omega⟩ rfl rfl]
  simp only [read_el V c t q _ ⟨win1_3.index t (0 : Fin 3), h0⟩ ⟨win1_3.index t (1 : Fin 3) * 4096 + q.val, by omega⟩ rfl rfl,
    read_nj V c t q _ ⟨win1_3.index t (0 : Fin 3), h0⟩ ⟨win1_3.index t (1 : Fin 3) * 4096 + q.val, by omega⟩ rfl rfl,
    read_nw V c t q ⟨win1_3.index t (0 : Fin 3), h0⟩ ⟨win1_3.index t (1 : Fin 3) * 4096 + q.val, by omega⟩ rfl rfl]
  rfl

/-- An entry of the output array is in point `t`'s block iff each coordinate is in the block's range on its axis. -/
theorem mem_blk (t : Fin cfg1.N) (i : S8x32768x1.Idx) :
    i ∈ ((cfg1.win 3).blk t).view.set ↔ ∀ a : Fin 3, win1_3.index t a * S1x4096x1.size a ≤ (i a).val
      ∧ (i a).val < win1_3.index t a * S1x4096x1.size a + S1x4096x1.size a := by
  show i ∈ ((View.whole main_v32).slice (win1_3.rect t)).set ↔ _
  rw [View.set_slice_whole, Rect.mem_set_unit]
  exact Iff.rfl

/-- Entry `(b, n, 0)` is in the block of the point of batch `b` and row block `n / 4096`. -/
theorem cover (i : S8x32768x1.Idx) :
    ∃ t : Fin cfg1.N, (cfg1.win 3).flush t = true ∧ i ∈ ((cfg1.win 3).blk t).view.set := by
  have hi0 : (i 0).val < 8 := (i 0).isLt
  have hi1 : (i 1).val < 32768 := (i 1).isLt
  have hi2 : (i 2).val < 1 := (i 2).isLt
  obtain ⟨t, ht0, ht1⟩ := idx_onto ⟨(i 0).val, hi0⟩ ⟨(i 1).val / 4096, by omega⟩
  have ht0' : win1_3.index t (0 : Fin 3) = (i 0).val := ht0
  have ht1' : win1_3.index t (1 : Fin 3) = (i 1).val / 4096 := ht1
  obtain ⟨-, -, -, -, -, h2⟩ := idx_facts t
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 4096 ≤ (i 1).val ∧ (i 1).val < win1_3.index t (1 : Fin 3) * 4096 + 4096
    omega
  | ⟨2, _⟩ =>
    show win1_3.index t (2 : Fin 3) * 1 ≤ (i 2).val ∧ (i 2).val < win1_3.index t (2 : Fin 3) * 1 + 1
    omega

/-- The output array after the region: the blend of the three input arrays, entry by entry, since every entry is in
    some point's block and each point writes its block of the blend. -/
theorem arr1_eq (c : Dev nD) :
    (dat1 (F := Ideal) V c).arrAt 3 cfg1.N
      = Cert.Spec.blendArr (V c main_arg1) (V c main_v31) (V c main_v29) :=
  (dat1 (F := Ideal) V c).arrAt_eq_of_cover 3 _ (fun t _ => flushed_eq V c t) cover

end Final

end Cert.KernelIdeal.BlendValue

end
-- ==== Proof.FlatRows.lean ====
/- The perceptron on flattened rows with transposed weights is the perceptron on the rank-3 features. -/
import proofs.«426404_j75952201663109_3_alg».proof.Proof.Gen.KernelIdeal
import proofs.«426404_j75952201663109_3_alg».proof.Proof.Spec
import Idealize.ShloMosaic.Lib.Pipeline.Value
import Idealize.ShloMosaic.Lib.ValueIdx
import Idealize.ShloMosaic.Lib.ValueLayout

noncomputable section

namespace Cert.KernelIdeal.FlatRows

open Idealize.ShloMosaic Idealize.ShloMosaic.TcCoe Idealize.SL.Sem Idealize.ShloMosaic.ValueIdx
open Cert.KernelIdeal Cert.KernelIdeal.Gen

/-! ## The flattened row of a node

Node (b, n) of the [8, 32768] grid is row b·32768 + n of the flattened array: both are the node's
position in row-major order. -/

/-- The flattened row of node (b, n). -/
def row (b : Fin 8) (n : Fin 32768) : Fin 262144 := ⟨b.val * 32768 + n.val, by omega⟩

theorem row_val (b : Fin 8) (n : Fin 32768) : (row b n).val = b.val * 32768 + n.val := rfl

/-! ## Each operand of the flattened perceptron, read at explicit coordinates -/

/-- A one-column array over the flattened rows, reshaped to [8, 32768, 1], reads at node (b, n) its row
    b·32768 + n. -/
theorem unflatten_apply {α : Type} (A : S262144x1.Idx → α) (hc : S262144x1.ShapeCasts S8x32768x1)
    (b : Fin 8) (n : Fin 32768) :
    shapeCast S8x32768x1 A hc (ix3 b n (0 : Fin 1)) = A (ix2 (row b n) (0 : Fin 1)) :=
  shapeCast_apply A hc _ _ (by
    rw [Shape.rowMajor_val_two, Shape.rowMajor_val_three]
    show (row b n).val * 1 + 0 = (b.val * 32768 + n.val) * 1 + 0
    rw [row_val])

/-- The features flattened to rows read, at row b·32768 + n and feature d, feature d of node (b, n). -/
theorem flatFeat_apply {α : Type} (x : S8x32768x128.Idx → α) (hc : S8x32768x128.ShapeCasts S262144x128)
    (b : Fin 8) (n : Fin 32768) (d : Fin 128) :
    shapeCast S262144x128 x hc (ix2 (row b n) d) = x (ix3 b n d) :=
  shapeCast_apply x hc _ _ (by
    rw [Shape.rowMajor_val_two, Shape.rowMajor_val_three]
    show (b.val * 32768 + n.val) * 128 + d.val = (row b n).val * 128 + d.val
    rw [row_val])

/-- The first weights transposed (and narrowed, which changes no extended real) read, at (d, h), entry
    (h, d). -/
theorem w1T_apply (w1 : (⟨S64x128, .f32⟩ : BufTy).Contents (Elt Ideal)) (ht : S64x128.Transposes [1, 0] S128x64)
    (hb : FTy.bits .bf16 < FTy.bits .f32) (d : Fin 128) (h : Fin 64) :
    truncf (F := Ideal) .bf16 (transpose S128x64 [1, 0] w1 ht) hb (ix2 d h) = w1 (ix2 h d) := by
  rw [truncf_apply]
  exact transpose_ix2_apply w1 ht d h

/-- The first bias as a row reads, at (0, h), entry h. -/
theorem b1Row_apply {α : Type} (b1 : S64.Idx → α) (hc : S64.ShapeCasts S1x64) (h : Fin 64) :
    shapeCast S1x64 b1 hc (ix2 (0 : Fin 1) h) = b1 (ix1 h) :=
  shapeCast_a_1a_apply b1 hc 0 h

/-- The second bias as a [1, 1] array reads, at (0, 0), its one entry. -/
theorem b2Row_apply {α : Type} (b2 : S1.Idx → α) (hc : S1.ShapeCasts S1x1) :
    shapeCast S1x1 b2 hc (ix2 (0 : Fin 1) (0 : Fin 1)) = b2 (ix1 (0 : Fin 1)) :=
  shapeCast_a_1a_apply b2 hc 0 0

/-! ## The perceptron of a row is the perceptron of its node -/

/-- If row r of the flattened features is node (b, n)'s feature row, the first weights are given
    transposed, and the biases are given as rows, then the flattened perceptron at row r is the logit of
    node (b, n): the same sums of the same products, each factor read at its rearranged index. -/
theorem flatLogit_eq_nodeLogit
    (X : (⟨2, ![262144, 128]⟩ : Shape).Idx → EReal) (W : (⟨2, ![128, 64]⟩ : Shape).Idx → EReal)
    (B1 : (⟨2, ![1, 64]⟩ : Shape).Idx → EReal) (w2 : (⟨2, ![1, 64]⟩ : Shape).Idx → EReal)
    (B2 : (⟨2, ![1, 1]⟩ : Shape).Idx → EReal)
    (x : (⟨3, ![8, 32768, 128]⟩ : Shape).Idx → EReal) (w1 : (⟨2, ![64, 128]⟩ : Shape).Idx → EReal)
    (b1 : (⟨1, ![64]⟩ : Shape).Idx → EReal) (b2 : (⟨1, ![1]⟩ : Shape).Idx → EReal)
    (b : Fin 8) (n : Fin 32768) (r : Fin 262144)
    (hX : ∀ d : Fin 128, X (ix2 r d) = x (ix3 b n d))
    (hW : ∀ (d : Fin 128) (h : Fin 64), W (ix2 d h) = w1 (ix2 h d))
    (hB1 : ∀ h : Fin 64, B1 (ix2 (0 : Fin 1) h) = b1 (ix1 h))
    (hB2 : B2 (ix2 (0 : Fin 1) (0 : Fin 1)) = b2 (ix1 (0 : Fin 1))) :
    Cert.Spec.flatLogit X W B1 w2 B2 r = Cert.Spec.nodeLogit x w1 b1 w2 b2 b n := by
  unfold Cert.Spec.flatLogit Cert.Spec.nodeLogit
  simp only [hX, hW, hB1, hB2]

/-- Row b·32768 + n of the kernel's perceptron is the logit of node (b, n). -/
theorem flatLogit_row (x0 : (⟨S8x32768x128, .f32⟩ : BufTy).Contents (Elt Ideal)) (w1 : (⟨S64x128, .f32⟩ : BufTy).Contents (Elt Ideal))
    (b1 : (⟨S64, .f32⟩ : BufTy).Contents (Elt Ideal)) (w2 : (⟨S1x64, .f32⟩ : BufTy).Contents (Elt Ideal))
    (b2 : (⟨S1, .f32⟩ : BufTy).Contents (Elt Ideal)) (b : Fin 8) (n : Fin 32768) :
    Cert.Spec.flatLogit (shapeCast S262144x128 x0 shapeCasts_S8x32768x128_S262144x128)
        (truncf (F := Ideal) .bf16 (transpose S128x64 [1, 0] w1 transposes_S64x128_S128x64_1_0) bitsLt_bf16_f32)
        (shapeCast S1x64 b1 shapeCasts_S64_S1x64) w2 (shapeCast S1x1 b2 shapeCasts_S1_S1x1) (row b n)
      = Cert.Spec.nodeLogit x0 w1 b1 w2 b2 b n :=
  flatLogit_eq_nodeLogit _ _ _ w2 _ x0 w1 b1 b2 b n (row b n)
    (fun d => flatFeat_apply x0 _ b n d)
    (fun d h => w1T_apply w1 _ _ d h)
    (fun h => b1Row_apply b1 _ h)
    (b2Row_apply b2 _)

/-! ## The array -/

theorem flat_eq_node (x0 : (⟨S8x32768x128, .f32⟩ : BufTy).Contents (Elt Ideal)) (w1 : (⟨S64x128, .f32⟩ : BufTy).Contents (Elt Ideal))
    (b1 : (⟨S64, .f32⟩ : BufTy).Contents (Elt Ideal)) (w2 : (⟨S1x64, .f32⟩ : BufTy).Contents (Elt Ideal))
    (b2 : (⟨S1, .f32⟩ : BufTy).Contents (Elt Ideal)) :
    shapeCast S8x32768x1
        (Cert.Spec.flatLogitArr (shapeCast S262144x128 x0 shapeCasts_S8x32768x128_S262144x128)
          (truncf (F := Ideal) .bf16 (transpose S128x64 [1, 0] w1 transposes_S64x128_S128x64_1_0) bitsLt_bf16_f32)
          (shapeCast S1x64 b1 shapeCasts_S64_S1x64) w2 (shapeCast S1x1 b2 shapeCasts_S1_S1x1))
        shapeCasts_S262144x1_S8x32768x1
      = Cert.Spec.nodeLogitArr x0 w1 b1 w2 b2 := by
  funext i
  obtain ⟨b, n, z, rfl⟩ : ∃ (b : Fin 8) (n : Fin 32768) (z : Fin 1), i = ix3 b n z := ⟨i 0, i 1, i 2, eq_ix3 i⟩
  obtain rfl : z = 0 := Subsingleton.elim z 0
  rw [unflatten_apply]
  exact flatLogit_row x0 w1 b1 w2 b2 b n

end Cert.KernelIdeal.FlatRows

end
-- ==== Proof.IndexPre.lean ====
/-
  The precondition, read back for the neighbour indices: every index x satisfies −262144 ≤ x < 262144 (signed), the
  range in which indexing a table of 262144 entries, negative indices counted from the end, is defined.
-/
import proofs.«426404_j75952201663109_3_alg».proof.Defs
import proofs.«426404_j75952201663109_3_alg».proof.Proof.Gen.KernelIdeal
import proofs.«426404_j75952201663109_3_alg».proof.Proof.Gen.Pre_finite_inputs
import Idealize.ShloMosaic.Lib.ReduceAll
import Idealize.ShloMosaic.Lib.StableHlo.Predicate
import Idealize.ShloMosaic.Lib.ValueIdx

noncomputable section

namespace Cert.KernelIdeal.IndexPre

open Idealize.ShloMosaic Idealize.ShloMosaic.TcCoe Idealize.SL.Sem Idealize.ShloMosaic.ValueIdx
open Cert.KernelIdeal Cert.KernelIdeal.Gen

/-! ## The last two conjuncts of the predicate

The predicate is a conjunction, over all nine arrays, of "every entry passes its test"; its last two
conjuncts test the neighbour indices: −262144 ≤ x and x < 262144, signed. They sit in the predicate's last
part, which takes the conjunction of everything before as one word: that word is never opened here. -/

/-- A conjunction of two arrays of truth values is one at an index only if both are. -/
theorem both_of_andi {s : Shape} (x y : IVec s 1) (j : s.Idx) (e : andi x y j = 1#1) : x j = 1#1 ∧ y j = 1#1 :=
  IntOp.andi_eq_one.1 e

/-- If the predicate's last part is one, every index word passes both range tests: each test's "all entries"
    fold is a conjunct of the result, and a fold of conjunctions that is one has every entry one; the array
    each index is compared with is one constant word broadcast. -/
theorem range_of_part2 [Cert.Pre_finite_inputs.Facts] (a2 : IVec Cert.Pre_finite_inputs.S8x32768x32 32)
    (a8 : FVec Ideal Cert.Pre_finite_inputs.S1 .f32) (v : IVec Cert.Pre_finite_inputs.S_ 1)
    (e : Cert.Pre_finite_inputs.fn_part2 (F := Ideal) a2 a8 v ix0 = 1#1) (i : Cert.Pre_finite_inputs.S8x32768x32.Idx) :
    IntOp.cmpi .sge (a2 i) 4294705152#32 = 1#1 ∧ IntOp.cmpi .slt (a2 i) 262144#32 = 1#1 := by
  -- the predicate's result has one index
  haveI : Subsingleton Cert.Pre_finite_inputs.S_.Idx := ⟨fun a b => funext fun d => d.elim0⟩
  unfold Cert.Pre_finite_inputs.fn_part2 at e
  dsimp only at e
  obtain ⟨e42, e45⟩ := both_of_andi _ _ _ e
  obtain ⟨-, e41⟩ := both_of_andi _ _ _ e42
  exact ⟨Host.reduce_andi_all _ _ _ _ _ e41 i, Host.reduce_andi_all _ _ _ _ _ e45 i⟩

/-! ## The precondition -/

/-- The precondition gives every neighbour index its range. -/
theorem range_of_pre (m : (ℓ : Loc nD τ sig) → Buf (Elt Ideal) ℓ) (h : Cert.Pre_KernelIdeal m) (c : Dev nD) (i : S8x32768x32.Idx) :
    IntOp.cmpi .sge ((m ((c : Thread nD τ).loc main_arg2) : (⟨S8x32768x32, .i32⟩ : BufTy).Contents (Elt Ideal)) i) 4294705152#32 = 1#1
      ∧ IntOp.cmpi .slt ((m ((c : Thread nD τ).loc main_arg2) : (⟨S8x32768x32, .i32⟩ : BufTy).Contents (Elt Ideal)) i) 262144#32 = 1#1 := by
  exact range_of_part2 _ _ _ (congrFun (h c) ix0) i

end Cert.KernelIdeal.IndexPre

end
-- ==== Proof.IndexWord.lean ====
/-
  One 32-bit index word. If −262144 ≤ x < 262144 (signed) then x, moved up by 262144 when negative, lies in
  [0, 262143]: for x < 0 the sum x + 262144 does not wrap and lands in [0, 262143]; for x ≥ 0 it is x itself.
-/
import Idealize.ShloMosaic.PureOps
import Idealize.ShloMosaic.Lib.Affine
import Idealize.ShloMosaic.Lib.StableHlo.Predicate

noncomputable section

namespace Cert.IndexWord

open Idealize.ShloMosaic

/-- The wrapped word passes both range tests of the take. -/
theorem wrap_in_table (x : BitVec 32) (h0 : IntOp.cmpi .sge x 4294705152#32 = 1#1) (h1 : IntOp.cmpi .slt x 262144#32 = 1#1) :
    IntOp.andi
        (IntOp.cmpi .sge (Scalar.select (IntOp.cmpi .slt x 0#32) (IntOp.addi x 262144#32) x) 0#32)
        (IntOp.cmpi .sle (Scalar.select (IntOp.cmpi .slt x 0#32) (IntOp.addi x 262144#32) x) 262143#32) = 1#1 := by
  have l0 : (4294705152#32 : BitVec 32).toInt = -262144 := by decide
  have l1 : (262144#32 : BitVec 32).toInt = 262144 := by decide
  have l2 : (262143#32 : BitVec 32).toInt = 262143 := by decide
  have lz : (0#32 : BitVec 32).toInt = 0 := by decide
  -- the two hypotheses, read signed: −262144 ≤ x and x < 262144
  rw [IntOp.cmpi_sge, l0] at h0
  rw [IntOp.cmpi_slt, l1] at h1
  rw [IntOp.andi_eq_one, IntOp.cmpi_sge, IntOp.cmpi_sle, lz, l2]
  by_cases hneg : x.toInt < 0
  · -- x < 0: the sum x + 262144 lies in [0, 262144), far inside the signed range, so it does not wrap
    have c : IntOp.cmpi .slt x 0#32 = 1 := IntOp.cmpi_slt.mpr (by rw [lz]; exact hneg)
    have s : (IntOp.addi x 262144#32).toInt = x.toInt + 262144 := by
      unfold IntOp.addi
      rw [BitVec.toInt_add, l1]
      exact Int.bmod_eq_of_le_mul_two (by omega) (by omega)
    unfold Scalar.select
    rw [if_pos c, s]
    omega
  · -- x ≥ 0: the word is x itself, and 0 ≤ x < 262144
    have c : ¬IntOp.cmpi .slt x 0#32 = 1 := fun h => hneg (by have := IntOp.cmpi_slt.mp h; rwa [lz] at this)
    unfold Scalar.select
    rw [if_neg c]
    omega

end Cert.IndexWord

end
-- ==== Proof.IndexRange.lean ====
/-
  A neighbour index x with −262144 ≤ x < 262144 (signed), moved up by 262144 when negative, lies in [0, 262143];
  so with every index in that range the take's range mask is all ones and the take is the plain read of the table at
  the wrapped indices.
-/
import proofs.«426404_j75952201663109_3_alg».proof.Proof.KernelHost
import proofs.«426404_j75952201663109_3_alg».proof.Proof.IndexWord
import Idealize.ShloMosaic.Lib.ReduceAll
import Idealize.ShloMosaic.Lib.StableHlo.Predicate
import Idealize.ShloMosaic.Lib.ValueIdx

noncomputable section

namespace Cert.KernelIdeal.IndexRange

open Idealize.ShloMosaic Idealize.ShloMosaic.TcCoe Idealize.SL.Sem Idealize.ShloMosaic.ValueIdx
open Cert.KernelIdeal Cert.KernelIdeal.Gen Cert.KernelIdeal.HostValue

variable {F : FTy → Type} [FloatOps F]

/-- A left fold by `and`, from 1, over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduce by `and`, from an initial word 1, of an array of ones is 1 at every index. -/
theorem reduce_andi_one {s t u : Shape} {axes : List (Fin s.rank)} (x : s.Idx → BitVec 1) (init : u.Idx → BitVec 1)
    (h' : s.ReducesTo axes t) (hu : 0 < u.numel) (hinit : init (Shape.Idx.first hu) = 1#1) (hx : ∀ i, x i = 1#1)
    (j : t.Idx) : Host.reduce IntOp.andi x init h' hu j = 1#1 := by
  rw [Host.reduce_eq_foldl, hinit]
  exact foldl_andi_one x hx _

/-- The range mask of the wrapped indices is 1 at every index: each start index is the wrapped word of ONE
    neighbour index, which passes both range tests. -/
theorem inTable_one (idx : (⟨S8x32768x32, .i32⟩ : BufTy).Contents (Elt F))
    (h : ∀ i, IntOp.cmpi .sge (idx i) 4294705152#32 = 1#1 ∧ IntOp.cmpi .slt (idx i) 262144#32 = 1#1)
    (j : S8x32768x32.Idx) : inTable (F := F) (wrapIdx (F := F) idx) j = 1#1 := by
  unfold inTable
  refine reduce_andi_one _ _ _ _ rfl (fun i => ?_) j
  exact Cert.IndexWord.wrap_in_table _ (h _).1 (h _).2

/-- With every index in range the take is the table read at the wrapped indices. -/
theorem takeFill_of_range (flat : (⟨S262144, .f32⟩ : BufTy).Contents (Elt F)) (idx : (⟨S8x32768x32, .i32⟩ : BufTy).Contents (Elt F))
    (h : ∀ i, IntOp.cmpi .sge (idx i) 4294705152#32 = 1#1 ∧ IntOp.cmpi .slt (idx i) 262144#32 = 1#1) :
    takeFill (F := F) flat idx = gatherAt (F := F) flat (wrapIdx (F := F) idx) := by
  funext j
  unfold takeFill
  rw [select_apply, inTable_one idx h j, select_one]

end Cert.KernelIdeal.IndexRange

end
-- ==== Proof.KernelValue.lean ====
/-
  The kernel program's result as one function of its argument arrays.

  The second region's output array is the blend of the edge logits, the taken neighbour weights and the node weights
  (the region's value); the node weights are the node softmax of the first region's logits (the host operations between
  the regions); the first region's logits, reshaped, are the perceptron's node logits of the features and the
  normalised weights (the first region's value and the host operations before it); and with every neighbour index in
  range the take is the plain read of the flattened node weights at the wrapped indices.
-/
import proofs.«426404_j75952201663109_3_alg».proof.Defs
import proofs.«426404_j75952201663109_3_alg».proof.Proof.KernelRun
import proofs.«426404_j75952201663109_3_alg».proof.Proof.KernelHost
import proofs.«426404_j75952201663109_3_alg».proof.Proof.KernelTake
import proofs.«426404_j75952201663109_3_alg».proof.Proof.KernelMlp
import proofs.«426404_j75952201663109_3_alg».proof.Proof.KernelBlend
import proofs.«426404_j75952201663109_3_alg».proof.Proof.FlatRows
import proofs.«426404_j75952201663109_3_alg».proof.Proof.IndexPre
import proofs.«426404_j75952201663109_3_alg».proof.Proof.IndexRange

noncomputable section

namespace Cert.KernelIdeal.Result

open Idealize.ShloMosaic Idealize.ShloMosaic.TcCoe Idealize.SL.Sem
open Cert.KernelIdeal Cert.KernelIdeal.Gen Cert.KernelIdeal.HostValue

variable (m : (ℓ : Loc nD τ sig) → Buf (Elt Ideal) ℓ) (ρ : Dev nD → PrngReg)

/-- The node logits of the argument arrays on device c. -/
def argLogits (c : Dev nD) : (⟨S8x32768x1, .f32⟩ : BufTy).Contents (Elt Ideal) :=
  Cert.Spec.nodeLogitArr (m ((c : Thread nD τ).loc main_arg0))
    (normRows1 (F := Ideal) (m ((c : Thread nD τ).loc main_arg3)) (m ((c : Thread nD τ).loc main_arg4)))
    (m ((c : Thread nD τ).loc main_arg5))
    (normRows2 (F := Ideal) (m ((c : Thread nD τ).loc main_arg6)) (m ((c : Thread nD τ).loc main_arg7)))
    (m ((c : Thread nD τ).loc main_arg8))

/-- The result array of the argument arrays on device c. -/
def result (c : Dev nD) : (⟨S8x32768x1, .f32⟩ : BufTy).Contents (Elt Ideal) :=
  Cert.Spec.blendArr (m ((c : Thread nD τ).loc main_arg1))
    (gatherAt (F := Ideal) (shapeCast S262144 (nodeSoftmax (F := Ideal) (argLogits m c)) shapeCasts_S8x32768x1_S262144)
      (wrapIdx (F := Ideal) (m ((c : Thread nD τ).loc main_arg2))))
    (nodeSoftmax (F := Ideal) (argLogits m c))

/-- The first region's logits, reshaped, are the node logits of the arguments. -/
theorem logits_value (c : Dev nD) : logits m ρ c = argLogits m c := by
  rw [logits_eq, Cert.KernelIdeal.MlpValue.arr0_eq (V5 m ρ) c, entry0_rows, entry0_weights, entry0_bias1, entry0_weights2,
    entry0_bias2]
  exact Cert.KernelIdeal.FlatRows.flat_eq_node _ _ _ _ _

/-- The result buffer's contents after the last region. -/
theorem result_value (hpre : Cert.Pre_KernelIdeal m) (c : Dev nD) :
    W9 m ρ c (Proc.devRef .tc main_v32) = result m c := by
  rw [show W9 m ρ c (Proc.devRef .tc main_v32) = (dat1 (V8 m ρ) c).arrAt 3 cfg1.N from W9_arr m ρ c 3,
    Cert.KernelIdeal.BlendValue.arr1_eq (V8 m ρ) c, entry1_edges, entry1_neighbours, entry1_weights, logits_value,
    Cert.KernelIdeal.IndexRange.takeFill_of_range _ _ (Cert.KernelIdeal.IndexPre.range_of_pre m hpre c)]
  rfl

/-- The run of the kernel program with its result named. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_value m ρ hpre c), (h c).2⟩)
    (Cert.KernelIdeal.GenRun.run_main m ρ)

end Cert.KernelIdeal.Result

end
-- ==== Proof.Shared.lean ====
/-
  The chains both programs share. The reference normalises the weights, takes the softmax over the node axis and
  gathers the neighbours' weights with the very operations the kernel program's host side applies; each of the
  reference's stages is therefore the kernel side's named chain of the stage it starts from. The two texts differ
  only in where their shape facts are stated.
-/
import proofs.«426404_j75952201663109_3_alg».proof.Proof.KernelHost
import proofs.«426404_j75952201663109_3_alg».proof.Proof.Gen.ReferenceIdeal.Read

noncomputable section

namespace Cert.Shared

open Idealize.ShloMosaic Idealize.ShloMosaic.TcCoe Idealize.SL.Sem
open Cert.KernelIdeal.HostValue

variable {F : FTy → Type} [FloatOps F]

/-- The reference's normalised first weights are the kernel side's. -/
theorem weights1 (x3 : (⟨Cert.ReferenceIdeal.S64x128, .f32⟩ : BufTy).Contents (Elt F)) (x4 : (⟨Cert.ReferenceIdeal.S64, .f32⟩ : BufTy).Contents (Elt F)) :
    Cert.ReferenceIdeal.Read.val_main_v5 (F := F) x3 x4 = normRows1 (F := F) x3 x4 := rfl

/-- The reference's normalised second weights are the kernel side's. -/
theorem weights2 (x6 : (⟨Cert.ReferenceIdeal.S1x64, .f32⟩ : BufTy).Contents (Elt F)) (x7 : (⟨Cert.ReferenceIdeal.S1, .f32⟩ : BufTy).Contents (Elt F)) :
    Cert.ReferenceIdeal.Read.val_main_v11 (F := F) x6 x7 = normRows2 (F := F) x6 x7 := rfl

/-- The reference's node weights are the node softmax of its logits. -/
theorem nodeWeights (x0 : (⟨Cert.ReferenceIdeal.S8x32768x128, .f32⟩ : BufTy).Contents (Elt F)) (x3 : (⟨Cert.ReferenceIdeal.S64x128, .f32⟩ : BufTy).Contents (Elt F))
    (x4 x5 : (⟨Cert.ReferenceIdeal.S64, .f32⟩ : BufTy).Contents (Elt F)) (x6 : (⟨Cert.ReferenceIdeal.S1x64, .f32⟩ : BufTy).Contents (Elt F))
    (x7 x8 : (⟨Cert.ReferenceIdeal.S1, .f32⟩ : BufTy).Contents (Elt F)) :
    Cert.ReferenceIdeal.Read.val_main_v31 (F := F) x0 x3 x4 x5 x6 x7 x8
      = nodeSoftmax (F := F) (Cert.ReferenceIdeal.Read.val_main_v20 (F := F) x0 x3 x4 x5 x6 x7 x8) := rfl

/-- The reference's gathered neighbour weights are the table of its node weights read at the wrapped indices. -/
theorem neighbours (x0 : (⟨Cert.ReferenceIdeal.S8x32768x128, .f32⟩ : BufTy).Contents (Elt F)) (x2 : (⟨Cert.ReferenceIdeal.S8x32768x32, .i32⟩ : BufTy).Contents (Elt F))
    (x3 : (⟨Cert.ReferenceIdeal.S64x128, .f32⟩ : BufTy).Contents (Elt F))
    (x4 x5 : (⟨Cert.ReferenceIdeal.S64, .f32⟩ : BufTy).Contents (Elt F)) (x6 : (⟨Cert.ReferenceIdeal.S1x64, .f32⟩ : BufTy).Contents (Elt F))
    (x7 x8 : (⟨Cert.ReferenceIdeal.S1, .f32⟩ : BufTy).Contents (Elt F)) :
    Cert.ReferenceIdeal.Read.val_main_v50 (F := F) x0 x2 x3 x4 x5 x6 x7 x8
      = gatherAt (F := F) (shapeCast Cert.KernelIdeal.S262144 (Cert.ReferenceIdeal.Read.val_main_v31 (F := F) x0 x3 x4 x5 x6 x7 x8)
          Cert.KernelIdeal.Facts₀.shapeCasts_S8x32768x1_S262144) (wrapIdx (F := F) x2) := rfl

end Cert.Shared

end
-- ==== Proof.RefLogit.lean ====
/- The reference's node logits, read index by index. -/
import proofs.«426404_j75952201663109_3_alg».proof.Proof.Gen.ReferenceIdeal.Read
import proofs.«426404_j75952201663109_3_alg».proof.Proof.Spec
import Idealize.ShloMosaic.Lib.ValueIdx
import Idealize.ShloMosaic.PureOps.Ideal.Laws

noncomputable section

namespace Cert.ReferenceIdeal.LogitValue

open Idealize.ShloMosaic Idealize.ShloMosaic.TcCoe Idealize.SL.Sem Idealize.ShloMosaic.ValueIdx
open Cert.ReferenceIdeal Cert.ReferenceIdeal.Gen Cert.ReferenceIdeal.Read

/-! ## Where each stage reads its operands, at node (b, n)

The first product contracts the feature axis: hidden unit h of node (b, n) reads feature d of that node
and entry (h, d) of the first weights. The second product contracts the hidden axis: the logit of node
(b, n) reads hidden unit h of that node and entry (0, h) of the second weights. The biases are read at
the hidden unit, and at the one entry of the second bias. -/

/-- The first product's left operand: feature d of node (b, n). -/
theorem featIdx (b : Fin 8) (n : Fin 32768) (h : Fin 64) (d : Fin 128) :
    lidx_main_v12 (ix3 b n h) d = ix3 b n d :=
  funext fun a => Fin.ext (by match a with | ⟨0, _⟩ => rfl | ⟨1, _⟩ => rfl | ⟨2, _⟩ => rfl)

/-- The first product's right operand: entry (h, d) of the first weights. -/
theorem w1Idx (b : Fin 8) (n : Fin 32768) (h : Fin 64) (d : Fin 128) :
    ridx_main_v12 (ix3 b n h) d = ix2 h d :=
  funext fun a => Fin.ext (by match a with | ⟨0, _⟩ => rfl | ⟨1, _⟩ => rfl)

/-- The first bias, broadcast over the nodes, is read at the hidden unit. -/
theorem b1Idx (b : Fin 8) (n : Fin 32768) (h : Fin 64) :
    idx_main_v13 (idx_main_v14 (ix3 b n h)) = ix1 h :=
  funext fun a => Fin.ext (by match a with | ⟨0, _⟩ => rfl)

/-- The second product's left operand: hidden unit h of node (b, n). -/
theorem hidIdx (b : Fin 8) (n : Fin 32768) (h : Fin 64) :
    lidx_main_v17 (ix3 b n (0 : Fin 1)) h = ix3 b n h :=
  funext fun a => Fin.ext (by match a with | ⟨0, _⟩ => rfl | ⟨1, _⟩ => rfl | ⟨2, _⟩ => rfl)

/-- The second product's right operand: entry (0, h) of the second weights. -/
theorem w2Idx (b : Fin 8) (n : Fin 32768) (h : Fin 64) :
    ridx_main_v17 (ix3 b n (0 : Fin 1)) h = ix2 (0 : Fin 1) h :=
  funext fun a => Fin.ext (by match a with | ⟨0, _⟩ => rfl | ⟨1, _⟩ => rfl)

/-- The second bias, broadcast over the nodes, is read at its one entry. -/
theorem b2Idx (b : Fin 8) (n : Fin 32768) :
    idx_main_v18 (idx_main_v19 (ix3 b n (0 : Fin 1))) = ix1 (0 : Fin 1) :=
  funext fun a => Fin.ext (by match a with | ⟨0, _⟩ => rfl)

/-! ## The hidden layer -/

/-- Hidden unit h of node (b, n): the features' product with row h of the first weights, plus the bias,
    clamped below at zero. -/
theorem hidden_eq (x0 : (⟨S8x32768x128, .f32⟩ : BufTy).Contents (Elt Ideal)) (x3 : (⟨S64x128, .f32⟩ : BufTy).Contents (Elt Ideal))
    (x4 x5 : (⟨S64, .f32⟩ : BufTy).Contents (Elt Ideal)) (b : Fin 8) (n : Fin 32768) (h : Fin 64) :
    val_main_v16 (F := Ideal) x0 x3 x4 x5 (ix3 b n h)
      = max ((∑ d : Fin 128, x0 (ix3 b n d) * val_main_v5 (F := Ideal) x3 x4 (ix2 h d)) + x5 (ix1 h)) Cert.Spec.zeroW := by
  rw [val_main_v16_apply, val_main_v15_apply, val_main_v12_apply, val_main_v14_apply, val_main_v13_apply,
    val_main_call2_v0_apply, val_main_call2_cst_apply, b1Idx]
  generalize val_main_v5 (F := Ideal) x3 x4 = w1
  simp only [Ideal.addf_def, Ideal.maximumf_def, Ideal.ofBits_def, featIdx, w1Idx]

/-! ## The logit -/

theorem logits_eq (x0 : (⟨S8x32768x128, .f32⟩ : BufTy).Contents (Elt Ideal)) (x3 : (⟨S64x128, .f32⟩ : BufTy).Contents (Elt Ideal))
    (x4 x5 : (⟨S64, .f32⟩ : BufTy).Contents (Elt Ideal)) (x6 : (⟨S1x64, .f32⟩ : BufTy).Contents (Elt Ideal))
    (x7 x8 : (⟨S1, .f32⟩ : BufTy).Contents (Elt Ideal)) :
    val_main_v20 (F := Ideal) x0 x3 x4 x5 x6 x7 x8
      = Cert.Spec.nodeLogitArr x0 (val_main_v5 (F := Ideal) x3 x4) x5 (val_main_v11 (F := Ideal) x6 x7) x8 := by
  funext i
  obtain ⟨b, n, z, rfl⟩ : ∃ (b : Fin 8) (n : Fin 32768) (z : Fin 1), i = ix3 b n z := ⟨i 0, i 1, i 2, eq_ix3 i⟩
  obtain rfl : z = 0 := Subsingleton.elim z 0
  rw [val_main_v20_apply, val_main_v17_apply, val_main_v19_apply, val_main_v18_apply, b2Idx]
  generalize val_main_v11 (F := Ideal) x6 x7 = w2
  simp only [Ideal.addf_def, hidIdx, w2Idx, hidden_eq]
  rfl

end Cert.ReferenceIdeal.LogitValue

end
-- ==== Proof.RefBlend.lean ====
/- The reference's result, read index by index over its edge softmax. -/
import proofs.«426404_j75952201663109_3_alg».proof.Proof.Gen.ReferenceIdeal.Read
import proofs.«426404_j75952201663109_3_alg».proof.Proof.Spec
import Idealize.ShloMosaic.Lib.ValueIdx
import Idealize.ShloMosaic.PureOps.Ideal.Laws

noncomputable section

namespace Cert.ReferenceIdeal.BlendValue

open Idealize.ShloMosaic Idealize.ShloMosaic.TcCoe Idealize.SL.Sem Idealize.ShloMosaic.ValueIdx
open Cert.ReferenceIdeal Cert.ReferenceIdeal.Gen Cert.ReferenceIdeal.Read

/-- The word of −∞ is the least extended real. -/
theorem negInfW_eq_bot : Cert.Spec.negInfW = (⊥ : EReal) := by
  simp [Cert.Spec.negInfW, Ideal.ofBits, Ideal.ieee]

/-- The maximum over axis 2 at (b, n) is the fold of max over the 32 edge logits of node (b, n), from −∞. -/
theorem edgeMax_at (x1 : (⟨S8x32768x32, .f32⟩ : BufTy).Contents (Elt Ideal)) (b : Fin 8) (n : Fin 32768) :
    val_main_v32 (F := Ideal) x1 (ix2 b n) = Cert.Spec.rowMax x1 b n := by
  unfold val_main_v32
  have h : S8x32768x32.Reduces [2] S8x32768 := by decide
  refine (Host.reduce_eq_fold_single (FloatOps.maximumf (F := Ideal) (φ := .f32)) x1 (val_main_cst_2 (F := Ideal))
    reducesTo_S8x32768x32_S8x32768_d2 h h_S_ (ix2 b n)).trans ?_
  have e : (x1 ∘ h.lift (ix2 b n)) = fun k : Fin 32 => x1 (ix3 b n k) :=
    funext fun k => congrArg x1 (funext fun a => Fin.ext (by match a with | ⟨0, _⟩ => rfl | ⟨1, _⟩ => rfl | ⟨2, _⟩ => rfl))
  rw [e]
  rfl

/-- The row maximum as the reference clamps it: the maximum of −∞ and the fold is the fold. -/
theorem rowMax_at (x1 : (⟨S8x32768x32, .f32⟩ : BufTy).Contents (Elt Ideal)) (b : Fin 8) (n : Fin 32768) :
    val_main_v34 (F := Ideal) x1 (ix2 b n) = Cert.Spec.rowMax x1 b n := by
  rw [val_main_v34_apply, val_main_v33_apply, val_main_cst_3_apply, edgeMax_at, Ideal.maximumf_def, Ideal.ofBits_def]
  show max Cert.Spec.negInfW _ = _
  rw [negInfW_eq_bot]
  exact max_eq_right bot_le

/-- The shifted exponential of edge k of node (b, n): the row maximum is read at (b, n) through its two broadcasts. -/
theorem edgeExp_at (x1 : (⟨S8x32768x32, .f32⟩ : BufTy).Contents (Elt Ideal)) (b : Fin 8) (n : Fin 32768) (k : Fin 32) :
    val_main_v38 (F := Ideal) x1 (ix3 b n k) = Cert.Spec.edgeExp x1 b n k := by
  have e : idx_main_v35 (idx_main_v36 (ix3 b n k)) = ix2 b n :=
    funext fun a => Fin.ext (by match a with | ⟨0, _⟩ => rfl | ⟨1, _⟩ => rfl)
  rw [val_main_v38_apply, val_main_v37_apply, val_main_v36_apply, val_main_v35_apply, e, rowMax_at,
    Ideal.hostUnary_exp_def, Ideal.subf_def]
  rfl

/-- The softmax denominator of node (b, n): the sum of the 32 shifted exponentials, from the zero word. -/
theorem edgeSum_at (x1 : (⟨S8x32768x32, .f32⟩ : BufTy).Contents (Elt Ideal)) (b : Fin 8) (n : Fin 32768) :
    val_main_v39 (F := Ideal) x1 (ix2 b n) = ∑ k : Fin 32, Cert.Spec.edgeExp x1 b n k := by
  rw [val_main_v39_apply, val_main_cst_4_apply, Ideal.ofBits_def, Ideal.ofBits_zero_f32, zero_add]
  refine Finset.sum_congr rfl fun k _ => ?_
  have e : idx_main_v39 (ix2 b n) k = ix3 b n k :=
    funext fun a => Fin.ext (by match a with | ⟨0, _⟩ => rfl | ⟨1, _⟩ => rfl | ⟨2, _⟩ => rfl)
  rw [e, edgeExp_at]

/-- The edge weight of edge k of node (b, n): its exponential over the denominator, read at (b, n) through its two broadcasts. -/
theorem edgeWeight_at (x1 : (⟨S8x32768x32, .f32⟩ : BufTy).Contents (Elt Ideal)) (b : Fin 8) (n : Fin 32768) (k : Fin 32) :
    val_main_v42 (F := Ideal) x1 (ix3 b n k)
      = Ideal.div (Cert.Spec.edgeExp x1 b n k) (∑ k' : Fin 32, Cert.Spec.edgeExp x1 b n k') := by
  have e : idx_main_v40 (idx_main_v41 (ix3 b n k)) = ix2 b n :=
    funext fun a => Fin.ext (by match a with | ⟨0, _⟩ => rfl | ⟨1, _⟩ => rfl)
  rw [val_main_v42_apply, val_main_v41_apply, val_main_v40_apply, e, edgeSum_at, edgeExp_at, Ideal.hostDivf_def]

/-- The weighted neighbour sum of node (b, n), over any array nj of neighbour weights. -/
theorem weighted_at (x0 : (⟨S8x32768x128, .f32⟩ : BufTy).Contents (Elt Ideal)) (x1 : (⟨S8x32768x32, .f32⟩ : BufTy).Contents (Elt Ideal))
    (x2 : (⟨S8x32768x32, .i32⟩ : BufTy).Contents (Elt Ideal)) (x3 : (⟨S64x128, .f32⟩ : BufTy).Contents (Elt Ideal))
    (x4 x5 : (⟨S64, .f32⟩ : BufTy).Contents (Elt Ideal)) (x6 : (⟨S1x64, .f32⟩ : BufTy).Contents (Elt Ideal))
    (x7 x8 : (⟨S1, .f32⟩ : BufTy).Contents (Elt Ideal)) (b : Fin 8) (n : Fin 32768) :
    val_main_v52 (F := Ideal) x0 x1 x2 x3 x4 x5 x6 x7 x8 (ix2 b n)
      = ∑ k : Fin 32, Ideal.div (Cert.Spec.edgeExp x1 b n k) (∑ k' : Fin 32, Cert.Spec.edgeExp x1 b n k')
          * val_main_v50 (F := Ideal) x0 x2 x3 x4 x5 x6 x7 x8 (ix3 b n k) := by
  rw [val_main_v52_apply, val_main_cst_6_apply, Ideal.ofBits_def, Ideal.ofBits_zero_f32, zero_add]
  refine Finset.sum_congr rfl fun k _ => ?_
  have e : idx_main_v52 (ix2 b n) k = ix3 b n k :=
    funext fun a => Fin.ext (by match a with | ⟨0, _⟩ => rfl | ⟨1, _⟩ => rfl | ⟨2, _⟩ => rfl)
  rw [e, val_main_v51_apply, edgeWeight_at, Ideal.mulf_def]

/-- The reference's result at (b, n, 0): half the node's own weight plus half the weighted neighbour sum; the
    size-one last coordinate is 0, and the sum is read at (b, n) through its broadcast. -/
theorem result_eq (x0 : (⟨S8x32768x128, .f32⟩ : BufTy).Contents (Elt Ideal)) (x1 : (⟨S8x32768x32, .f32⟩ : BufTy).Contents (Elt Ideal))
    (x2 : (⟨S8x32768x32, .i32⟩ : BufTy).Contents (Elt Ideal)) (x3 : (⟨S64x128, .f32⟩ : BufTy).Contents (Elt Ideal))
    (x4 x5 : (⟨S64, .f32⟩ : BufTy).Contents (Elt Ideal)) (x6 : (⟨S1x64, .f32⟩ : BufTy).Contents (Elt Ideal))
    (x7 x8 : (⟨S1, .f32⟩ : BufTy).Contents (Elt Ideal)) :
    val_main_v58 (F := Ideal) x0 x1 x2 x3 x4 x5 x6 x7 x8
      = Cert.Spec.blendArr x1 (val_main_v50 (F := Ideal) x0 x2 x3 x4 x5 x6 x7 x8) (val_main_v31 (F := Ideal) x0 x3 x4 x5 x6 x7 x8) := by
  funext i
  obtain ⟨b, n, z, rfl⟩ : ∃ (b : Fin 8) (n : Fin 32768) (z : Fin 1), i = ix3 b n z := ⟨i 0, i 1, i 2, eq_ix3 i⟩
  obtain rfl : z = 0 := Subsingleton.elim z 0
  have e : idx_main_v53 (ix3 b n (0 : Fin 1)) = ix2 b n :=
    funext fun a => Fin.ext (by match a with | ⟨0, _⟩ => rfl | ⟨1, _⟩ => rfl)
  rw [val_main_v58_apply, val_main_v55_apply, val_main_v57_apply, val_main_v53_apply, e, weighted_at,
    val_main_v54_apply, val_main_v56_apply, val_main_cst_7_apply, val_main_cst_8_apply,
    Ideal.addf_def, Ideal.mulf_def, Ideal.mulf_def, Ideal.ofBits_def]
  rfl

end Cert.ReferenceIdeal.BlendValue

end
-- ==== Proof.RefValue.lean ====
/-
  The reference program's result as the same function of its argument arrays: its last stage is the blend of the
  edge logits, its gathered neighbour weights and its node weights; those are the shared chains of its node logits,
  which are the perceptron's node logits of the features and the normalised weights.
-/
import proofs.«426404_j75952201663109_3_alg».proof.Proof.Shared
import proofs.«426404_j75952201663109_3_alg».proof.Proof.RefLogit
import proofs.«426404_j75952201663109_3_alg».proof.Proof.RefBlend

noncomputable section

namespace Cert.ReferenceIdeal.Result

open Idealize.ShloMosaic Idealize.ShloMosaic.TcCoe Idealize.SL.Sem
open Cert.ReferenceIdeal Cert.ReferenceIdeal.Gen Cert.ReferenceIdeal.Read Cert.KernelIdeal.HostValue

/-- The node logits of the argument arrays. -/
def argLogits (x0 : (⟨S8x32768x128, .f32⟩ : BufTy).Contents (Elt Ideal)) (x3 : (⟨S64x128, .f32⟩ : BufTy).Contents (Elt Ideal))
    (x4 x5 : (⟨S64, .f32⟩ : BufTy).Contents (Elt Ideal)) (x6 : (⟨S1x64, .f32⟩ : BufTy).Contents (Elt Ideal))
    (x7 x8 : (⟨S1, .f32⟩ : BufTy).Contents (Elt Ideal)) : (⟨S8x32768x1, .f32⟩ : BufTy).Contents (Elt Ideal) :=
  Cert.Spec.nodeLogitArr x0 (normRows1 (F := Ideal) x3 x4) x5 (normRows2 (F := Ideal) x6 x7) x8

/-- The reference's last stage is the blend over the shared chains of those logits. -/
theorem result_value (x0 : (⟨S8x32768x128, .f32⟩ : BufTy).Contents (Elt Ideal)) (x1 : (⟨S8x32768x32, .f32⟩ : BufTy).Contents (Elt Ideal))
    (x2 : (⟨S8x32768x32, .i32⟩ : BufTy).Contents (Elt Ideal)) (x3 : (⟨S64x128, .f32⟩ : BufTy).Contents (Elt Ideal))
    (x4 x5 : (⟨S64, .f32⟩ : BufTy).Contents (Elt Ideal)) (x6 : (⟨S1x64, .f32⟩ : BufTy).Contents (Elt Ideal))
    (x7 x8 : (⟨S1, .f32⟩ : BufTy).Contents (Elt Ideal)) :
    val_main_v58 (F := Ideal) x0 x1 x2 x3 x4 x5 x6 x7 x8
      = Cert.Spec.blendArr x1
          (gatherAt (F := Ideal) (shapeCast Cert.KernelIdeal.S262144 (nodeSoftmax (F := Ideal) (argLogits x0 x3 x4 x5 x6 x7 x8))
            Cert.KernelIdeal.Facts₀.shapeCasts_S8x32768x1_S262144) (wrapIdx (F := Ideal) x2))
          (nodeSoftmax (F := Ideal) (argLogits x0 x3 x4 x5 x6 x7 x8)) := by
  rw [Cert.ReferenceIdeal.BlendValue.result_eq, Cert.Shared.neighbours, Cert.Shared.nodeWeights,
    Cert.ReferenceIdeal.LogitValue.logits_eq, Cert.Shared.weights1, Cert.Shared.weights2]
  rfl

end Cert.ReferenceIdeal.Result

end
-- ==== Proof.lean ====
/-
  The kernel computes, for a graph of 8 × 32768 nodes, a blend of each node's weight with the edge-softmax average of
  its 32 neighbours' weights; the node weights are a softmax over the nodes of a two-layer perceptron's logits. It
  does so in two launched regions (the perceptron on flattened rows; the edge softmax, neighbour average and blend)
  with host operations around them (weight normalisation, the node softmax, the take of the neighbours' weights); the
  reference does all of it with host operations. At the extended reals the two are one function of the arguments:

    * the perceptron on flattened rows with the transposed weight matrix is the perceptron on the rank-3 features:
      the same sums of the same products (KernelMlp, FlatRows, RefLogit);
    * weight normalisation, the node softmax and the gather are the same operations in both programs and are never
      opened (KernelHost, Shared);
    * the kernel's take answers an index outside the table with a fill word where the reference's indexing clamps;
      under the precondition every neighbour index lies in the range where indexing the 262144-entry table is
      defined (−262144 ≤ x < 262144, negative indices counted from the end), and there the take is the plain read
      at the wrapped index (IndexPre, IndexWord, IndexRange);
    * the second region's body and the reference's edge softmax are the same maximum, exponentials, sums, quotient
      and blend, read index by index (KernelBlend, RefBlend).

  No law of the extended reals beyond reindexing a sum is used, and finiteness of the float inputs is not needed.
-/
import proofs.«426404_j75952201663109_3_alg».proof.Defs
import proofs.«426404_j75952201663109_3_alg».proof.Proof.Gen.Kernel
import proofs.«426404_j75952201663109_3_alg».proof.Proof.Gen.Kernel.Frame
import proofs.«426404_j75952201663109_3_alg».proof.Proof.Gen.KernelIdeal
import proofs.«426404_j75952201663109_3_alg».proof.Proof.Gen.KernelIdeal.Frame
import proofs.«426404_j75952201663109_3_alg».proof.Proof.Gen.ReferenceIdeal
import proofs.«426404_j75952201663109_3_alg».proof.Proof.Gen.Pre_finite_inputs
import proofs.«426404_j75952201663109_3_alg».proof.Proof.Gen.ReferenceIdeal.Run
import proofs.«426404_j75952201663109_3_alg».proof.Proof.Gen.ReferenceIdeal.Read
import proofs.«426404_j75952201663109_3_alg».proof.Proof.KernelValue
import proofs.«426404_j75952201663109_3_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result array: each is the blend, over
    the shared chains, of the perceptron's node logits of the arguments. -/
theorem algebraic : Cert.algebraic_KernelIdeal_ReferenceIdeal := by
  intro m ρ m' ρ' hpre hagree
  refine ⟨fun c => Cert.KernelIdeal.Result.result m c, Cert.KernelIdeal.Result.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.Result.result_value,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
